-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1 .f32) (main_arg3 : FVec F S128x128 .f32) (main_arg4 : FVec F S128 .f32) (main_arg5 : FVec F S128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1 : Shape := ⟨1, ![1]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x1 : Shape := ⟨2, ![1, 1]⟩
abbrev S5000x128 : Shape := ⟨2, ![5000, 128]⟩

abbrev nBuf : Space → Nat
  | .hbm => 45
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S128x128, .f32⟩
  | .hbm, ⟨27, _⟩ => ⟨S128x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x1, .f32⟩
  | .hbm, ⟨33, _⟩ => ⟨S100000x128, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x1, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_23 : BitVec 32 := 0#32
  let v40 : BitVec 1 := Scalar.cmpi .ne v39 c0_i32_23
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  broadcasts_S1x1_S5000x128 : S1x1.Broadcasts S5000x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v21_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1 : Shape := ⟨1, ![1]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x1 : Shape := ⟨2, ![1, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S1x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1 : S_.BroadcastsInDim S1 (![] : Fin 0 → Fin S1.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelFrame.Shared0.lean ====
/-
  The first kernel region (rows combined with their neighbour sums, the first linear layer, and the running column
  sums of its result and of its square): what its per-point runs are stated over. A window's block at a grid point
  is read off the array the region finds; an input window's staging buffer holds that block at every point, whether
  the pipeline fetched it there or not. The body resets its two running sums exactly at the first grid point and
  copies them out exactly at the last one; both conditions are decided over the twenty points of the grid.
-/
import proofs.«121117_j83167746719884_1_alg».proof.Proof.Gen.Kernel.Launch
import proofs.«121117_j83167746719884_1_alg».proof.Proof.Gen.Kernel.Skeleton
import proofs.«121117_j83167746719884_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is the entry contents and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- The body resets its running sums when the grid coordinate is zero. -/
abbrev cond0_0 (i : grid0.Coords) : Prop := (Scalar.cmpi .ne (Scalar.extui (Scalar.cmpi .eq (BitVec.ofNat 32 (i 0).val) 0#32)) 0#32) = 1#1
/-- That is the first of the twenty points. -/
theorem hcond0_0 : ∀ t : Fin cfg0.N, cond0_0 (grid0.coords t) ↔ t.val % 20 = 0 :=
  (by decide +kernel : ∀ t : Fin grid0.N, cond0_0 (grid0.coords t) ↔ t.val % 20 = 0)

/-- The body copies its running sums out when the grid coordinate is the last. -/
abbrev cond0_1 (i : grid0.Coords) : Prop := k0_cond2 i = 1#1
/-- That is the last of the twenty points. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last point the two sum outputs are idle, and the pipeline does not write them back there. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last point they are live. -/
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-! ## The staging and scratch memrefs -/

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two running sums live in scoped buffers of the kernel's own. -/
abbrev scM0_0 : Memref sig .tc .vmem S1x128 .f32 := Memref.whole cc0_scratch0
abbrev scM0_1 : Memref sig .tc .vmem S1x128 .f32 := Memref.whole cc0_scratch1
/-- Views through which the contents of the outputs' buffers and of the two running sums are stated. -/
abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev VS0_0 : View sig .tc .vmem S1x128 .f32 := scM0_0.view
abbrev VS0_1 : View sig .tc .vmem S1x128 .f32 := scM0_1.view

/-- The core's scoped buffers that belong to the second kernel region (its staging buffers), each whole at some
    contents: the first region's body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- What the pipeline lends a kernel that names no resource of its own, with this kernel's two scratch buffers
    pulled out as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA others0; rw [scopedRest0_eq]; simp only [scM0_0, scM0_1, owns_whole]; try rfl

end Cert.Kernel.Frame

end
-- ==== Proof.KernelFrame.Run0A.lean ====
/-
  The first kernel's body run once at the FIRST grid point (the running sums are reset before they are added to; nothing is copied out): from whole staging buffers — the five input blocks at their
  contents, the row-block output at anything, the two sum outputs handed back untouched, the two running sums
  at anything — the body runs to its end, returning the inputs as they were and each buffer it stores into with the
  list of the pieces it stored (last store first); the lists are found by running the body, not written down.
-/
import proofs.«121117_j83167746719884_1_alg».proof.Proof.KernelFrame.Shared0

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S5000x128 .f32) (x2 : Vec F S1x1 .f32) (x3 : Vec F S128x128 .f32) (x4 : Vec F S1x128 .f32) :
    Σ' (L5 : List (View.Piece (Elt F) S5000x128 .f32)) (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare xi6
            ∗ owns (c : Thread nD τ) arg8 fullShare xi7
            ∗ (∃ d, owns (c : Thread nD τ) arg9 fullShare d)
            ∗ (∃ d, owns (c : Thread nD τ) arg10 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare xi6
                ∗ owns (c : Thread nD τ) arg8 fullShare xi7
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Frame

end
-- ==== Proof.KernelFrame.Run0B.lean ====
/-
  The first kernel's body run once at a MIDDLE grid point (the running sums are added to; nothing is reset, nothing is copied out): from whole staging buffers — the five input blocks at their
  contents, the row-block output at anything, the two sum outputs handed back untouched, the two running sums
  at what the point before left — the body runs to its end, returning the inputs as they were and each buffer it stores into with the
  list of the pieces it stored (last store first); the lists are found by running the body, not written down.
-/
import proofs.«121117_j83167746719884_1_alg».proof.Proof.KernelFrame.Run0A

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S5000x128 .f32) (x2 : Vec F S1x1 .f32) (x3 : Vec F S128x128 .f32) (x4 : Vec F S1x128 .f32) (xs0 xs1 : Vec F S1x128 .f32) :
    Σ' (L5 : List (View.Piece (Elt F) S5000x128 .f32)) (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare xi6
            ∗ owns (c : Thread nD τ) arg8 fullShare xi7
            ∗ owns (c : Thread nD τ) arg9 fullShare xs0
            ∗ owns (c : Thread nD τ) arg10 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare xi6
                ∗ owns (c : Thread nD τ) arg8 fullShare xi7
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Frame

end
-- ==== Proof.KernelFrame.Run0C.lean ====
/-
  The first kernel's body run once at the LAST grid point (the running sums are added to and then copied out into the two sum outputs): from whole staging buffers — the five input blocks at their
  contents, the row-block output at anything, the two sum outputs at anything, the two running sums
  at what the point before left — the body runs to its end, returning the inputs as they were and each buffer it stores into with the
  list of the pieces it stored (last store first); the lists are found by running the body, not written down.
-/
import proofs.«121117_j83167746719884_1_alg».proof.Proof.KernelFrame.Run0B

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S5000x128 .f32) (x2 : Vec F S1x1 .f32) (x3 : Vec F S128x128 .f32) (x4 : Vec F S1x128 .f32) (xs0 xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.Kernel.Frame

end
-- ==== Proof.KernelFrame.Region0.lean ====
/-
  The first kernel region, point by point. At each of the twenty grid points the body stores the block of the first
  linear layer's rows, and adds that block's column sums and the column sums of its squares to two running sums
  kept in scratch; the running sums start from zero at the first point and are copied into the two sum outputs at
  the last. What the row-block output, the two sum outputs and the two running sums hold after each point is
  defined by recursion on the point; the region's invariant carries the two running sums from one point to the next.
-/
import proofs.«121117_j83167746719884_1_alg».proof.Proof.KernelFrame.Run0C

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's run at a point, by case -/

/-- The run at the first point. -/
def runA (c : Dev nD) (t : Fin cfg0.N) (h0 : t.val % 20 = 0) (h1 : ¬t.val % 20 = 19) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)
/-- The run at a middle point, the running sums at `xs0`, `xs1`. -/
def runB (c : Dev nD) (t : Fin cfg0.N) (h0 : ¬t.val % 20 = 0) (h1 : ¬t.val % 20 = 19) (xs0 xs1 : Vec F S1x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs0 xs1
/-- The run at the last point, the running sums at `xs0`, `xs1`. -/
def runC (c : Dev nD) (t : Fin cfg0.N) (h0 : ¬t.val % 20 = 0) (h1 : t.val % 20 = 19) (xs0 xs1 : Vec F S1x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) xs0 xs1

/-! ## The stored pieces cover their buffers -/

theorem coverA_5 (c : Dev nD) (t : Fin cfg0.N) (h0 : t.val % 20 = 0) (h1 : ¬t.val % 20 = 19) (y : S5000x128.Idx) :
    ∃ pc ∈ (runA V c t h0 h1).1, y ∈ pc.1.set :=
  View.cover_of_tiledL (runA V c t h0 h1).1 S5000x128.size (by unfold runA; sl_kernel_rfl) y
theorem coverA_s0 (c : Dev nD) (t : Fin cfg0.N) (h0 : t.val % 20 = 0) (h1 : ¬t.val % 20 = 19) (y : S1x128.Idx) :
    ∃ pc ∈ (runA V c t h0 h1).2.1, y ∈ pc.1.set :=
  View.cover_of_tiledL (runA V c t h0 h1).2.1 S1x128.size (by unfold runA; sl_kernel_rfl) y
theorem coverA_s1 (c : Dev nD) (t : Fin cfg0.N) (h0 : t.val % 20 = 0) (h1 : ¬t.val % 20 = 19) (y : S1x128.Idx) :
    ∃ pc ∈ (runA V c t h0 h1).2.2.1, y ∈ pc.1.set :=
  View.cover_of_tiledL (runA V c t h0 h1).2.2.1 S1x128.size (by unfold runA; sl_kernel_rfl) y
theorem coverB_5 (c : Dev nD) (t : Fin cfg0.N) (h0 : ¬t.val % 20 = 0) (h1 : ¬t.val % 20 = 19) (xs0 xs1 : Vec F S1x128 .f32) (y : S5000x128.Idx) :
    ∃ pc ∈ (runB V c t h0 h1 xs0 xs1).1, y ∈ pc.1.set :=
  View.cover_of_tiledL (runB V c t h0 h1 xs0 xs1).1 S5000x128.size (by unfold runB; sl_kernel_rfl) y
theorem coverB_s0 (c : Dev nD) (t : Fin cfg0.N) (h0 : ¬t.val % 20 = 0) (h1 : ¬t.val % 20 = 19) (xs0 xs1 : Vec F S1x128 .f32) (y : S1x128.Idx) :
    ∃ pc ∈ (runB V c t h0 h1 xs0 xs1).2.1, y ∈ pc.1.set :=
  View.cover_of_tiledL (runB V c t h0 h1 xs0 xs1).2.1 S1x128.size (by unfold runB; sl_kernel_rfl) y
theorem coverB_s1 (c : Dev nD) (t : Fin cfg0.N) (h0 : ¬t.val % 20 = 0) (h1 : ¬t.val % 20 = 19) (xs0 xs1 : Vec F S1x128 .f32) (y : S1x128.Idx) :
    ∃ pc ∈ (runB V c t h0 h1 xs0 xs1).2.2.1, y ∈ pc.1.set :=
  View.cover_of_tiledL (runB V c t h0 h1 xs0 xs1).2.2.1 S1x128.size (by unfold runB; sl_kernel_rfl) y
theorem coverC_5 (c : Dev nD) (t : Fin cfg0.N) (h0 : ¬t.val % 20 = 0) (h1 : t.val % 20 = 19) (xs0 xs1 : Vec F S1x128 .f32) (y : S5000x128.Idx) :
    ∃ pc ∈ (runC V c t h0 h1 xs0 xs1).1, y ∈ pc.1.set :=
  View.cover_of_tiledL (runC V c t h0 h1 xs0 xs1).1 S5000x128.size (by unfold runC; sl_kernel_rfl) y
theorem coverC_6 (c : Dev nD) (t : Fin cfg0.N) (h0 : ¬t.val % 20 = 0) (h1 : t.val % 20 = 19) (xs0 xs1 : Vec F S1x128 .f32) (y : S1x128.Idx) :
    ∃ pc ∈ (runC V c t h0 h1 xs0 xs1).2.1, y ∈ pc.1.set :=
  View.cover_of_tiledL (runC V c t h0 h1 xs0 xs1).2.1 S1x128.size (by unfold runC; sl_kernel_rfl) y
theorem coverC_7 (c : Dev nD) (t : Fin cfg0.N) (h0 : ¬t.val % 20 = 0) (h1 : t.val % 20 = 19) (xs0 xs1 : Vec F S1x128 .f32) (y : S1x128.Idx) :
    ∃ pc ∈ (runC V c t h0 h1 xs0 xs1).2.2.1, y ∈ pc.1.set :=
  View.cover_of_tiledL (runC V c t h0 h1 xs0 xs1).2.2.1 S1x128.size (by unfold runC; sl_kernel_rfl) y
theorem coverC_s0 (c : Dev nD) (t : Fin cfg0.N) (h0 : ¬t.val % 20 = 0) (h1 : t.val % 20 = 19) (xs0 xs1 : Vec F S1x128 .f32) (y : S1x128.Idx) :
    ∃ pc ∈ (runC V c t h0 h1 xs0 xs1).2.2.2.1, y ∈ pc.1.set :=
  View.cover_of_tiledL (runC V c t h0 h1 xs0 xs1).2.2.2.1 S1x128.size (by unfold runC; sl_kernel_rfl) y
theorem coverC_s1 (c : Dev nD) (t : Fin cfg0.N) (h0 : ¬t.val % 20 = 0) (h1 : t.val % 20 = 19) (xs0 xs1 : Vec F S1x128 .f32) (y : S1x128.Idx) :
    ∃ pc ∈ (runC V c t h0 h1 xs0 xs1).2.2.2.2.1, y ∈ pc.1.set :=
  View.cover_of_tiledL (runC V c t h0 h1 xs0 xs1).2.2.2.2.1 S1x128.size (by unfold runC; sl_kernel_rfl) y

/-! ## What a point leaves, by case -/

/-- What a point leaves: the row-block output, the two sum outputs, the two running sums. -/
abbrev Outs0 (F : FTy → Type) [FloatOps F] : Type := Vec F S5000x128 .f32 × Vec F S1x128 .f32 × Vec F S1x128 .f32 × Vec F S1x128 .f32 × Vec F S1x128 .f32

/-- A sum output at a point that does not store into it: a placeholder nothing consults (the window is idle there
    and not written back). -/
def idle6 : Vec F S1x128 .f32 := VO0_6.read (Elt F) (VO0_6.writes (Elt F) VO0_6.junk [])
def idle7 : Vec F S1x128 .f32 := VO0_7.read (Elt F) (VO0_7.writes (Elt F) VO0_7.junk [])

def ptA (c : Dev nD) (t : Fin cfg0.N) (h0 : t.val % 20 = 0) (h1 : ¬t.val % 20 = 19) : Outs0 F :=
  (VO0_5.read (Elt F) (VO0_5.writes (Elt F) VO0_5.junk (runA V c t h0 h1).1), idle6, idle7,
   VS0_0.read (Elt F) (VS0_0.writes (Elt F) VS0_0.junk (runA V c t h0 h1).2.1),
   VS0_1.read (Elt F) (VS0_1.writes (Elt F) VS0_1.junk (runA V c t h0 h1).2.2.1))
def ptB (c : Dev nD) (t : Fin cfg0.N) (h0 : ¬t.val % 20 = 0) (h1 : ¬t.val % 20 = 19) (xs0 xs1 : Vec F S1x128 .f32) : Outs0 F :=
  (VO0_5.read (Elt F) (VO0_5.writes (Elt F) VO0_5.junk (runB V c t h0 h1 xs0 xs1).1), idle6, idle7,
   VS0_0.read (Elt F) (VS0_0.writes (Elt F) VS0_0.junk (runB V c t h0 h1 xs0 xs1).2.1),
   VS0_1.read (Elt F) (VS0_1.writes (Elt F) VS0_1.junk (runB V c t h0 h1 xs0 xs1).2.2.1))
def ptC (c : Dev nD) (t : Fin cfg0.N) (h0 : ¬t.val % 20 = 0) (h1 : t.val % 20 = 19) (xs0 xs1 : Vec F S1x128 .f32) : Outs0 F :=
  (VO0_5.read (Elt F) (VO0_5.writes (Elt F) VO0_5.junk (runC V c t h0 h1 xs0 xs1).1),
   VO0_6.read (Elt F) (VO0_6.writes (Elt F) VO0_6.junk (runC V c t h0 h1 xs0 xs1).2.1),
   VO0_7.read (Elt F) (VO0_7.writes (Elt F) VO0_7.junk (runC V c t h0 h1 xs0 xs1).2.2.1),
   VS0_0.read (Elt F) (VS0_0.writes (Elt F) VS0_0.junk (runC V c t h0 h1 xs0 xs1).2.2.2.1),
   VS0_1.read (Elt F) (VS0_1.writes (Elt F) VS0_1.junk (runC V c t h0 h1 xs0 xs1).2.2.2.2.1))

/-! ## What the buffers hold after each point -/

theorem N0_eq : cfg0.N = 20 := N_0

/-- THE ACCUMULATION: what the three outputs' staging buffers and the two running sums hold after the body at position
    `n`: the first point starts the sums afresh, every later point adds to what the point before left, and the last
    also copies the sums out. -/
def outsAt0 (c : Dev nD) : (n : ℕ) → n < cfg0.N → Outs0 F
  | 0, hn => ptA V c ⟨0, hn⟩ (Nat.zero_mod _) (by show ¬(0 : ℕ) % 20 = 19; decide)
  | n + 1, hn =>
    if h1 : (n + 1) % 20 = 19 then
      ptC V c ⟨n + 1, hn⟩ (by have hN : n + 1 < 20 := lt_of_lt_of_eq hn N0_eq; show ¬(n + 1) % 20 = 0; omega) h1
        (outsAt0 c n (Nat.lt_of_succ_lt hn)).2.2.2.1 (outsAt0 c n (Nat.lt_of_succ_lt hn)).2.2.2.2
    else
      ptB V c ⟨n + 1, hn⟩ (by have hN : n + 1 < 20 := lt_of_lt_of_eq hn N0_eq; show ¬(n + 1) % 20 = 0; omega) h1
        (outsAt0 c n (Nat.lt_of_succ_lt hn)).2.2.2.1 (outsAt0 c n (Nat.lt_of_succ_lt hn)).2.2.2.2

theorem outsAt0_A (c : Dev nD) (t : Fin cfg0.N) (h0 : t.val % 20 = 0) (h1 : ¬t.val % 20 = 19) :
    outsAt0 V c t.val t.isLt = ptA V c t h0 h1 := by
  obtain ⟨n, hn⟩ := t
  cases n with
  | zero => rfl
  | succ n => exact absurd h0 (by have hN : n + 1 < 20 := lt_of_lt_of_eq hn N0_eq; show ¬(n + 1) % 20 = 0; omega)

theorem outsAt0_B (c : Dev nD) (t : Fin cfg0.N) (h0 : ¬t.val % 20 = 0) (h1 : ¬t.val % 20 = 19) :
    outsAt0 V c t.val t.isLt = ptB V c t h0 h1 (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h1).trans rfl

theorem outsAt0_C (c : Dev nD) (t : Fin cfg0.N) (h0 : ¬t.val % 20 = 0) (h1 : t.val % 20 = 19) :
    outsAt0 V c t.val t.isLt = ptC V c t h0 h1 (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_pos h1).trans rfl

/-! ## The region's invariant -/

/-- Before position `n`: before the first point whatever the pipeline lends (every scratch buffer at anything); afterwards
    the two running sums at what the point before left in them, the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ others0 (F := F) c) ∗ (∃ r, prngReg c r)) := by
  cases n with
  | zero => exact absurd rfl hz
  | succ n => rfl

/-! ## The pipeline's proof data -/

/-- The proof data of the first pipeline on core `c`: the arrays as the region finds them; after the body at point `t`
    each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' buffers hold their blocks; the point's position says which case it is; the
    invariant hands the body the two running sums at what the point before left (at anything at the first point) and takes
    them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt N0_eq
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h1 : t.val % 20 = 19
  · have h0 : ¬t.val % 20 = 0 := by omega
    have hz : t.val ≠ 0 := by omega
    rw [show (dat0 V c).leavesExact 6 t = owns (c : Thread nD τ) (ms0_6 t) fullShare ((dat0 V c).after 6 t) from by
      unfold Dat.leavesExact; rw [liveAt0_6 t ((hcond0_1 t).mpr h1)], after0_6]
    rw [show (dat0 V c).leavesExact 7 t = owns (c : Thread nD τ) (ms0_7 t) fullShare ((dat0 V c).after 7 t) from by
      unfold Dat.leavesExact; rw [liveAt0_7 t ((hcond0_1 t).mpr h1)], after0_7]
    rw [outsAt0_C V c t h0 h1]
    unfold ptC; dsimp only
    rw [PhiS_castSucc V c t, PhiS_pos V c _ _ hz]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runC V c t h0 h1 _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (coverC_s0 V c t h0 h1 _ _)
        isplitl [HS1]
        · unfold owns; iexists _; isplitr
          swap; · iexact HS1
          ipureintro; exact View.read_writes_of_cover _ _ _ _ _ (coverC_s1 V c t h0 h1 _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverC_5 V c t h0 h1 _ _)
    isplitl [H6]
    · unfold owns; iexists _; isplitr
      swap; · iexact H6
      ipureintro; exact View.read_writes_of_cover _ _ _ _ _ (coverC_6 V c t h0 h1 _ _)
    unfold owns; iexists _; isplitr
    swap; · iexact H7
    ipureintro; exact View.read_writes_of_cover _ _ _ _ _ (coverC_7 V c t h0 h1 _ _)
  · by_cases h0 : t.val % 20 = 0
    · have hz : t.val = 0 := by omega
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_A V c t h0 h1]
      unfold ptA; dsimp only
      rw [PhiS_castSucc V c t, PhiS_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA_s0 V c t h0 h1)
          isplitl [HS1]
          · unfold owns; iexists _; isplitr
            swap; · iexact HS1
            ipureintro; exact View.read_writes_of_cover _ _ _ _ _ (coverA_s1 V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverA_5 V c t h0 h1)
      isplitl [H6]; · iexists _; iexact H6
      iexists _; iexact H7
    · have hz : t.val ≠ 0 := by omega
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold ptB; dsimp only
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverB_s0 V c t h0 h1 _ _)
          isplitl [HS1]
          · unfold owns; iexists _; isplitr
            swap; · iexact HS1
            ipureintro; exact View.read_writes_of_cover _ _ _ _ _ (coverB_s1 V c t h0 h1 _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverB_5 V c t h0 h1 _ _)
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the launch lent: the running sums' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N0_eq; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.Kernel.Frame

end
-- ==== Proof.KernelFrame.Region1.lean ====
/-
  The second kernel region (normalise each row block with the column statistics, scale and shift, clip at zero, and
  apply the second linear layer): each grid point reads one block of rows and the six small operands whole and
  stores one block of rows; it keeps nothing between points. Stated at a parameter: the buffer contents the region finds.
-/
import proofs.«121117_j83167746719884_1_alg».proof.Proof.Gen.Kernel.Launch
import proofs.«121117_j83167746719884_1_alg».proof.Proof.Gen.Kernel.Skeleton
import proofs.«121117_j83167746719884_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rRows1 : Rect S5000x128 := (Rect.unit (s := S5000x128) ![0, 0] S5000x128.size inb_S5000x128_S5000x128_0_0)
abbrev rFeat1 : Rect S1x128 := (Rect.unit (s := S1x128) ![0, 0] S1x128.size inb_S1x128_S1x128_0_0)
abbrev rSq1 : Rect S128x128 := (Rect.unit (s := S128x128) ![0, 0] S128x128.size inb_S128x128_S128x128_0_0)

/-! ## What the body leaves in the output window's buffer -/

/-- The output block after the body, from the seven input blocks: its one store, of the whole block. -/
def out1_7 (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) : Vec F S5000x128 .f32 :=
  View.canon [⟨rRows1, k1_pay1 (View.ld x0 rRows1) (View.ld x2 rFeat1) (View.ld x1 rFeat1) (View.ld x3 rFeat1) (View.ld x4 rFeat1) (View.ld x5 rSq1) (View.ld x6 rFeat1)⟩]

/-- The one store covers the buffer. -/
theorem cover1_7 (p0 : Vec F S5000x128 .f32) (y : S5000x128.Idx) :
    ∃ pc ∈ ([⟨rRows1, p0⟩] : List (View.Piece (Elt F) S5000x128 .f32)), y ∈ pc.1.set :=
  View.cover_of_tiled [⟨rRows1, p0⟩] S5000x128.size (by rfl) y

/-! ## The body's triple -/

set_option maxHeartbeats 4000000 in
/-- On whole staging buffers, the inputs' at contents `xW` and the output's at anything, the body runs to the
    continuation holding the inputs' as they were and the output's at `out1_7` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__kernel_b i arg1 harg1 arg2 harg2 arg3 harg3 arg4 harg4 arg5 harg5 arg6 harg6 arg7 harg7 arg8 harg8) K := by
  simp only [cc1__kernel_b_eq_skeleton]; unfold cc1__kernel_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the second pipeline on core `c`: the arrays as the region finds them; after the body at point
    `t` each input's buffer at its block and the output's at `out1_7` of the input blocks; the invariant is what the
    pipeline lends a kernel that names no resource of its own; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KernelFrame.Run.lean ====
/-
  The whole program as a run of four segments: the host operations before the first kernel region (slicing the edge
  list, gathering and scatter-adding the neighbour rows, transposing the weights), the first region, the host operations
  between the regions (the column means and variances from the two sums), the second region. The buffer contents at each
  segment boundary are a fold from the launch memory: a host stretch applies its operations, a region leaves its arrays
  at what its write-backs leave and every other buffer as entered. Every weakly fair execution terminates, and the final
  memory holds every unscoped buffer at the last boundary's contents; the arguments end as launched because no host
  operation and no region writes one.
-/
import proofs.«121117_j83167746719884_1_alg».proof.Proof.KernelFrame.Region0
import proofs.«121117_j83167746719884_1_alg».proof.Proof.KernelFrame.Region1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_main m ρ)

/-- The result array's final contents: what the second region's write-backs leave. -/
theorem result_mem : θ_run defs (onTc (τ := τ) (main (F := F))) ⟨m, fun _ => 0, ρ⟩ (fun r => ∀ c : Dev nD,
      r.2.mem ((c.tc : Thread nD τ).loc main_v28) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v28 (by decide))).trans (W4_arr m ρ c 7),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_main m ρ)

end Cert.Kernel.Frame

end
-- ==== Proof.KernelIdealFrame.Shared0.lean ====
/-
  The first kernel region (rows combined with their neighbour sums, the first linear layer, and the running column
  sums of its result and of its square): what its per-point runs are stated over. A window's block at a grid point
  is read off the array the region finds; an input window's staging buffer holds that block at every point, whether
  the pipeline fetched it there or not. The body resets its two running sums exactly at the first grid point and
  copies them out exactly at the last one; both conditions are decided over the twenty points of the grid.
-/
import proofs.«121117_j83167746719884_1_alg».proof.Proof.Gen.KernelIdeal.Launch
import proofs.«121117_j83167746719884_1_alg».proof.Proof.Gen.KernelIdeal.Skeleton
import proofs.«121117_j83167746719884_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is the entry contents and whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- The body resets its running sums when the grid coordinate is zero. -/
abbrev cond0_0 (i : grid0.Coords) : Prop := (Scalar.cmpi .ne (Scalar.extui (Scalar.cmpi .eq (BitVec.ofNat 32 (i 0).val) 0#32)) 0#32) = 1#1
/-- That is the first of the twenty points. -/
theorem hcond0_0 : ∀ t : Fin cfg0.N, cond0_0 (grid0.coords t) ↔ t.val % 20 = 0 :=
  (by decide +kernel : ∀ t : Fin grid0.N, cond0_0 (grid0.coords t) ↔ t.val % 20 = 0)

/-- The body copies its running sums out when the grid coordinate is the last. -/
abbrev cond0_1 (i : grid0.Coords) : Prop := k0_cond2 i = 1#1
/-- That is the last of the twenty points. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last point the two sum outputs are idle, and the pipeline does not write them back there. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
/-- At the last point they are live. -/
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-! ## The staging and scratch memrefs -/

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two running sums live in scoped buffers of the kernel's own. -/
abbrev scM0_0 : Memref sig .tc .vmem S1x128 .f32 := Memref.whole cc0_scratch0
abbrev scM0_1 : Memref sig .tc .vmem S1x128 .f32 := Memref.whole cc0_scratch1
/-- Views through which the contents of the outputs' buffers and of the two running sums are stated. -/
abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev VS0_0 : View sig .tc .vmem S1x128 .f32 := scM0_0.view
abbrev VS0_1 : View sig .tc .vmem S1x128 .f32 := scM0_1.view

/-- The core's scoped buffers that belong to the second kernel region (its staging buffers), each whole at some
    contents: the first region's body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- What the pipeline lends a kernel that names no resource of its own, with this kernel's two scratch buffers
    pulled out as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 (F := F) c) ∗ (∃ r, prngReg c r)) := by
  unfold Pipeline.ΦA others0; rw [scopedRest0_eq]; simp only [scM0_0, scM0_1, owns_whole]; try rfl

end Cert.KernelIdeal.Frame

end
-- ==== Proof.KernelIdealFrame.Run0A.lean ====
/-
  The first kernel's body run once at the FIRST grid point (the running sums are reset before they are added to; nothing is copied out): from whole staging buffers — the five input blocks at their
  contents, the row-block output at anything, the two sum outputs handed back untouched, the two running sums
  at anything — the body runs to its end, returning the inputs as they were and each buffer it stores into with the
  list of the pieces it stored (last store first); the lists are found by running the body, not written down.
-/
import proofs.«121117_j83167746719884_1_alg».proof.Proof.KernelIdealFrame.Shared0

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 x1 : Vec F S5000x128 .f32) (x2 : Vec F S1x1 .f32) (x3 : Vec F S128x128 .f32) (x4 : Vec F S1x128 .f32) :
    Σ' (L5 : List (View.Piece (Elt F) S5000x128 .f32)) (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare xi6
            ∗ owns (c : Thread nD τ) arg8 fullShare xi7
            ∗ (∃ d, owns (c : Thread nD τ) arg9 fullShare d)
            ∗ (∃ d, owns (c : Thread nD τ) arg10 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare xi6
                ∗ owns (c : Thread nD τ) arg8 fullShare xi7
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Frame

end
-- ==== Proof.KernelIdealFrame.Run0B.lean ====
/-
  The first kernel's body run once at a MIDDLE grid point (the running sums are added to; nothing is reset, nothing is copied out): from whole staging buffers — the five input blocks at their
  contents, the row-block output at anything, the two sum outputs handed back untouched, the two running sums
  at what the point before left — the body runs to its end, returning the inputs as they were and each buffer it stores into with the
  list of the pieces it stored (last store first); the lists are found by running the body, not written down.
-/
import proofs.«121117_j83167746719884_1_alg».proof.Proof.KernelIdealFrame.Run0A

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 x1 : Vec F S5000x128 .f32) (x2 : Vec F S1x1 .f32) (x3 : Vec F S128x128 .f32) (x4 : Vec F S1x128 .f32) (xs0 xs1 : Vec F S1x128 .f32) :
    Σ' (L5 : List (View.Piece (Elt F) S5000x128 .f32)) (LS0 : List (View.Piece (Elt F) S1x128 .f32)), { LS1 : List (View.Piece (Elt F) S1x128 .f32) //
      ∀ (xi6 xi7 : Vec F S1x128 .f32) (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ owns (c : Thread nD τ) arg7 fullShare xi6
            ∗ owns (c : Thread nD τ) arg8 fullShare xi7
            ∗ owns (c : Thread nD τ) arg9 fullShare xs0
            ∗ owns (c : Thread nD τ) arg10 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ owns (c : Thread nD τ) arg7 fullShare xi6
                ∗ owns (c : Thread nD τ) arg8 fullShare xi7
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, fun xi6 xi7 E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Frame

end
-- ==== Proof.KernelIdealFrame.Run0C.lean ====
/-
  The first kernel's body run once at the LAST grid point (the running sums are added to and then copied out into the two sum outputs): from whole staging buffers — the five input blocks at their
  contents, the row-block output at anything, the two sum outputs at anything, the two running sums
  at what the point before left — the body runs to its end, returning the inputs as they were and each buffer it stores into with the
  list of the pieces it stored (last store first); the lists are found by running the body, not written down.
-/
import proofs.«121117_j83167746719884_1_alg».proof.Proof.KernelIdealFrame.Run0B

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 x1 : Vec F S5000x128 .f32) (x2 : Vec F S1x1 .f32) (x3 : Vec F S128x128 .f32) (x4 : Vec F S1x128 .f32) (xs0 xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_a_eq_skeleton]; unfold cc0__kernel_a_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexists _; iexact HS0
    iexists _; iexact HS1

end Cert.KernelIdeal.Frame

end
-- ==== Proof.KernelIdealFrame.Region0.lean ====
/-
  The first kernel region, point by point. At each of the twenty grid points the body stores the block of the first
  linear layer's rows, and adds that block's column sums and the column sums of its squares to two running sums
  kept in scratch; the running sums start from zero at the first point and are copied into the two sum outputs at
  the last. What the row-block output, the two sum outputs and the two running sums hold after each point is
  defined by recursion on the point; the region's invariant carries the two running sums from one point to the next.
-/
import proofs.«121117_j83167746719884_1_alg».proof.Proof.KernelIdealFrame.Run0C

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's run at a point, by case -/

/-- The run at the first point. -/
def runA (c : Dev nD) (t : Fin cfg0.N) (h0 : t.val % 20 = 0) (h1 : ¬t.val % 20 = 19) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)
/-- The run at a middle point, the running sums at `xs0`, `xs1`. -/
def runB (c : Dev nD) (t : Fin cfg0.N) (h0 : ¬t.val % 20 = 0) (h1 : ¬t.val % 20 = 19) (xs0 xs1 : Vec F S1x128 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) xs0 xs1
/-- The run at the last point, the running sums at `xs0`, `xs1`. -/
def runC (c : Dev nD) (t : Fin cfg0.N) (h0 : ¬t.val % 20 = 0) (h1 : t.val % 20 = 19) (xs0 xs1 : Vec F S1x128 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) xs0 xs1

/-! ## The stored pieces cover their buffers -/

theorem coverA_5 (c : Dev nD) (t : Fin cfg0.N) (h0 : t.val % 20 = 0) (h1 : ¬t.val % 20 = 19) (y : S5000x128.Idx) :
    ∃ pc ∈ (runA V c t h0 h1).1, y ∈ pc.1.set :=
  View.cover_of_tiledL (runA V c t h0 h1).1 S5000x128.size (by unfold runA; sl_kernel_rfl) y
theorem coverA_s0 (c : Dev nD) (t : Fin cfg0.N) (h0 : t.val % 20 = 0) (h1 : ¬t.val % 20 = 19) (y : S1x128.Idx) :
    ∃ pc ∈ (runA V c t h0 h1).2.1, y ∈ pc.1.set :=
  View.cover_of_tiledL (runA V c t h0 h1).2.1 S1x128.size (by unfold runA; sl_kernel_rfl) y
theorem coverA_s1 (c : Dev nD) (t : Fin cfg0.N) (h0 : t.val % 20 = 0) (h1 : ¬t.val % 20 = 19) (y : S1x128.Idx) :
    ∃ pc ∈ (runA V c t h0 h1).2.2.1, y ∈ pc.1.set :=
  View.cover_of_tiledL (runA V c t h0 h1).2.2.1 S1x128.size (by unfold runA; sl_kernel_rfl) y
theorem coverB_5 (c : Dev nD) (t : Fin cfg0.N) (h0 : ¬t.val % 20 = 0) (h1 : ¬t.val % 20 = 19) (xs0 xs1 : Vec F S1x128 .f32) (y : S5000x128.Idx) :
    ∃ pc ∈ (runB V c t h0 h1 xs0 xs1).1, y ∈ pc.1.set :=
  View.cover_of_tiledL (runB V c t h0 h1 xs0 xs1).1 S5000x128.size (by unfold runB; sl_kernel_rfl) y
theorem coverB_s0 (c : Dev nD) (t : Fin cfg0.N) (h0 : ¬t.val % 20 = 0) (h1 : ¬t.val % 20 = 19) (xs0 xs1 : Vec F S1x128 .f32) (y : S1x128.Idx) :
    ∃ pc ∈ (runB V c t h0 h1 xs0 xs1).2.1, y ∈ pc.1.set :=
  View.cover_of_tiledL (runB V c t h0 h1 xs0 xs1).2.1 S1x128.size (by unfold runB; sl_kernel_rfl) y
theorem coverB_s1 (c : Dev nD) (t : Fin cfg0.N) (h0 : ¬t.val % 20 = 0) (h1 : ¬t.val % 20 = 19) (xs0 xs1 : Vec F S1x128 .f32) (y : S1x128.Idx) :
    ∃ pc ∈ (runB V c t h0 h1 xs0 xs1).2.2.1, y ∈ pc.1.set :=
  View.cover_of_tiledL (runB V c t h0 h1 xs0 xs1).2.2.1 S1x128.size (by unfold runB; sl_kernel_rfl) y
theorem coverC_5 (c : Dev nD) (t : Fin cfg0.N) (h0 : ¬t.val % 20 = 0) (h1 : t.val % 20 = 19) (xs0 xs1 : Vec F S1x128 .f32) (y : S5000x128.Idx) :
    ∃ pc ∈ (runC V c t h0 h1 xs0 xs1).1, y ∈ pc.1.set :=
  View.cover_of_tiledL (runC V c t h0 h1 xs0 xs1).1 S5000x128.size (by unfold runC; sl_kernel_rfl) y
theorem coverC_6 (c : Dev nD) (t : Fin cfg0.N) (h0 : ¬t.val % 20 = 0) (h1 : t.val % 20 = 19) (xs0 xs1 : Vec F S1x128 .f32) (y : S1x128.Idx) :
    ∃ pc ∈ (runC V c t h0 h1 xs0 xs1).2.1, y ∈ pc.1.set :=
  View.cover_of_tiledL (runC V c t h0 h1 xs0 xs1).2.1 S1x128.size (by unfold runC; sl_kernel_rfl) y
theorem coverC_7 (c : Dev nD) (t : Fin cfg0.N) (h0 : ¬t.val % 20 = 0) (h1 : t.val % 20 = 19) (xs0 xs1 : Vec F S1x128 .f32) (y : S1x128.Idx) :
    ∃ pc ∈ (runC V c t h0 h1 xs0 xs1).2.2.1, y ∈ pc.1.set :=
  View.cover_of_tiledL (runC V c t h0 h1 xs0 xs1).2.2.1 S1x128.size (by unfold runC; sl_kernel_rfl) y
theorem coverC_s0 (c : Dev nD) (t : Fin cfg0.N) (h0 : ¬t.val % 20 = 0) (h1 : t.val % 20 = 19) (xs0 xs1 : Vec F S1x128 .f32) (y : S1x128.Idx) :
    ∃ pc ∈ (runC V c t h0 h1 xs0 xs1).2.2.2.1, y ∈ pc.1.set :=
  View.cover_of_tiledL (runC V c t h0 h1 xs0 xs1).2.2.2.1 S1x128.size (by unfold runC; sl_kernel_rfl) y
theorem coverC_s1 (c : Dev nD) (t : Fin cfg0.N) (h0 : ¬t.val % 20 = 0) (h1 : t.val % 20 = 19) (xs0 xs1 : Vec F S1x128 .f32) (y : S1x128.Idx) :
    ∃ pc ∈ (runC V c t h0 h1 xs0 xs1).2.2.2.2.1, y ∈ pc.1.set :=
  View.cover_of_tiledL (runC V c t h0 h1 xs0 xs1).2.2.2.2.1 S1x128.size (by unfold runC; sl_kernel_rfl) y

/-! ## What a point leaves, by case -/

/-- What a point leaves: the row-block output, the two sum outputs, the two running sums. -/
abbrev Outs0 (F : FTy → Type) [FloatOps F] : Type := Vec F S5000x128 .f32 × Vec F S1x128 .f32 × Vec F S1x128 .f32 × Vec F S1x128 .f32 × Vec F S1x128 .f32

/-- A sum output at a point that does not store into it: a placeholder nothing consults (the window is idle there
    and not written back). -/
def idle6 : Vec F S1x128 .f32 := VO0_6.read (Elt F) (VO0_6.writes (Elt F) VO0_6.junk [])
def idle7 : Vec F S1x128 .f32 := VO0_7.read (Elt F) (VO0_7.writes (Elt F) VO0_7.junk [])

def ptA (c : Dev nD) (t : Fin cfg0.N) (h0 : t.val % 20 = 0) (h1 : ¬t.val % 20 = 19) : Outs0 F :=
  (VO0_5.read (Elt F) (VO0_5.writes (Elt F) VO0_5.junk (runA V c t h0 h1).1), idle6, idle7,
   VS0_0.read (Elt F) (VS0_0.writes (Elt F) VS0_0.junk (runA V c t h0 h1).2.1),
   VS0_1.read (Elt F) (VS0_1.writes (Elt F) VS0_1.junk (runA V c t h0 h1).2.2.1))
def ptB (c : Dev nD) (t : Fin cfg0.N) (h0 : ¬t.val % 20 = 0) (h1 : ¬t.val % 20 = 19) (xs0 xs1 : Vec F S1x128 .f32) : Outs0 F :=
  (VO0_5.read (Elt F) (VO0_5.writes (Elt F) VO0_5.junk (runB V c t h0 h1 xs0 xs1).1), idle6, idle7,
   VS0_0.read (Elt F) (VS0_0.writes (Elt F) VS0_0.junk (runB V c t h0 h1 xs0 xs1).2.1),
   VS0_1.read (Elt F) (VS0_1.writes (Elt F) VS0_1.junk (runB V c t h0 h1 xs0 xs1).2.2.1))
def ptC (c : Dev nD) (t : Fin cfg0.N) (h0 : ¬t.val % 20 = 0) (h1 : t.val % 20 = 19) (xs0 xs1 : Vec F S1x128 .f32) : Outs0 F :=
  (VO0_5.read (Elt F) (VO0_5.writes (Elt F) VO0_5.junk (runC V c t h0 h1 xs0 xs1).1),
   VO0_6.read (Elt F) (VO0_6.writes (Elt F) VO0_6.junk (runC V c t h0 h1 xs0 xs1).2.1),
   VO0_7.read (Elt F) (VO0_7.writes (Elt F) VO0_7.junk (runC V c t h0 h1 xs0 xs1).2.2.1),
   VS0_0.read (Elt F) (VS0_0.writes (Elt F) VS0_0.junk (runC V c t h0 h1 xs0 xs1).2.2.2.1),
   VS0_1.read (Elt F) (VS0_1.writes (Elt F) VS0_1.junk (runC V c t h0 h1 xs0 xs1).2.2.2.2.1))

/-! ## What the buffers hold after each point -/

theorem N0_eq : cfg0.N = 20 := N_0

/-- THE ACCUMULATION: what the three outputs' staging buffers and the two running sums hold after the body at position
    `n`: the first point starts the sums afresh, every later point adds to what the point before left, and the last
    also copies the sums out. -/
def outsAt0 (c : Dev nD) : (n : ℕ) → n < cfg0.N → Outs0 F
  | 0, hn => ptA V c ⟨0, hn⟩ (Nat.zero_mod _) (by show ¬(0 : ℕ) % 20 = 19; decide)
  | n + 1, hn =>
    if h1 : (n + 1) % 20 = 19 then
      ptC V c ⟨n + 1, hn⟩ (by have hN : n + 1 < 20 := lt_of_lt_of_eq hn N0_eq; show ¬(n + 1) % 20 = 0; omega) h1
        (outsAt0 c n (Nat.lt_of_succ_lt hn)).2.2.2.1 (outsAt0 c n (Nat.lt_of_succ_lt hn)).2.2.2.2
    else
      ptB V c ⟨n + 1, hn⟩ (by have hN : n + 1 < 20 := lt_of_lt_of_eq hn N0_eq; show ¬(n + 1) % 20 = 0; omega) h1
        (outsAt0 c n (Nat.lt_of_succ_lt hn)).2.2.2.1 (outsAt0 c n (Nat.lt_of_succ_lt hn)).2.2.2.2

theorem outsAt0_A (c : Dev nD) (t : Fin cfg0.N) (h0 : t.val % 20 = 0) (h1 : ¬t.val % 20 = 19) :
    outsAt0 V c t.val t.isLt = ptA V c t h0 h1 := by
  obtain ⟨n, hn⟩ := t
  cases n with
  | zero => rfl
  | succ n => exact absurd h0 (by have hN : n + 1 < 20 := lt_of_lt_of_eq hn N0_eq; show ¬(n + 1) % 20 = 0; omega)

theorem outsAt0_B (c : Dev nD) (t : Fin cfg0.N) (h0 : ¬t.val % 20 = 0) (h1 : ¬t.val % 20 = 19) :
    outsAt0 V c t.val t.isLt = ptB V c t h0 h1 (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_neg h1).trans rfl

theorem outsAt0_C (c : Dev nD) (t : Fin cfg0.N) (h0 : ¬t.val % 20 = 0) (h1 : t.val % 20 = 19) :
    outsAt0 V c t.val t.isLt = ptC V c t h0 h1 (outsAt0 V c (t.val - 1) (Nat.lt_of_le_of_lt (Nat.sub_le _ _) t.isLt)).2.2.2.1
      (outsAt0 V c (t.val - 1) (Nat.lt_of_le_of_lt (Nat.sub_le _ _) t.isLt)).2.2.2.2 := by
  obtain ⟨n, hn⟩ := t
  cases n with
  | zero => exact absurd (Nat.zero_mod _) h0
  | succ n => exact (dif_pos h1).trans rfl

/-! ## The region's invariant -/

/-- Before position `n`: before the first point whatever the pipeline lends (every scratch buffer at anything); afterwards
    the two running sums at what the point before left in them, the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.2.1) ∗ owns (c : Thread nD τ) scM0_1 fullShare ((outsAt0 V c n hn).2.2.2.2) ∗ others0 (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.2.1) ∗ owns (c : Thread nD τ) scM0_1 fullShare ((outsAt0 V c n hn).2.2.2.2) ∗ others0 (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.2.1) ∗ owns (c : Thread nD τ) scM0_1 fullShare ((outsAt0 V c (n - 1) (by omega)).2.2.2.2) ∗ others0 (F := F) c) ∗ (∃ r, prngReg c r)) := by
  cases n with
  | zero => exact absurd rfl hz
  | succ n => rfl

/-! ## The pipeline's proof data -/

/-- The proof data of the first pipeline on core `c`: the arrays as the region finds them; after the body at point `t`
    each input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point: the inputs' buffers hold their blocks; the point's position says which case it is; the
    invariant hands the body the two running sums at what the point before left (at anything at the first point) and takes
    them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 20 := lt_of_lt_of_eq t.isLt N0_eq
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  by_cases h1 : t.val % 20 = 19
  · have h0 : ¬t.val % 20 = 0 := by omega
    have hz : t.val ≠ 0 := by omega
    rw [show (dat0 V c).leavesExact 6 t = owns (c : Thread nD τ) (ms0_6 t) fullShare ((dat0 V c).after 6 t) from by
      unfold Dat.leavesExact; rw [liveAt0_6 t ((hcond0_1 t).mpr h1)], after0_6]
    rw [show (dat0 V c).leavesExact 7 t = owns (c : Thread nD τ) (ms0_7 t) fullShare ((dat0 V c).after 7 t) from by
      unfold Dat.leavesExact; rw [liveAt0_7 t ((hcond0_1 t).mpr h1)], after0_7]
    rw [outsAt0_C V c t h0 h1]
    unfold ptC; dsimp only
    rw [PhiS_castSucc V c t, PhiS_pos V c _ _ hz]
    iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runC V c t h0 h1 _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (coverC_s0 V c t h0 h1 _ _)
        isplitl [HS1]
        · unfold owns; iexists _; isplitr
          swap; · iexact HS1
          ipureintro; exact View.read_writes_of_cover _ _ _ _ _ (coverC_s1 V c t h0 h1 _ _)
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (coverC_5 V c t h0 h1 _ _)
    isplitl [H6]
    · unfold owns; iexists _; isplitr
      swap; · iexact H6
      ipureintro; exact View.read_writes_of_cover _ _ _ _ _ (coverC_6 V c t h0 h1 _ _)
    unfold owns; iexists _; isplitr
    swap; · iexact H7
    ipureintro; exact View.read_writes_of_cover _ _ _ _ _ (coverC_7 V c t h0 h1 _ _)
  · by_cases h0 : t.val % 20 = 0
    · have hz : t.val = 0 := by omega
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_A V c t h0 h1]
      unfold ptA; dsimp only
      rw [PhiS_castSucc V c t, PhiS_zero V c _ _ hz, PhiA0_eq]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverA_s0 V c t h0 h1)
          isplitl [HS1]
          · unfold owns; iexists _; isplitr
            swap; · iexact HS1
            ipureintro; exact View.read_writes_of_cover _ _ _ _ _ (coverA_s1 V c t h0 h1)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverA_5 V c t h0 h1)
      isplitl [H6]; · iexists _; iexact H6
      iexists _; iexact H7
    · have hz : t.val ≠ 0 := by omega
      rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [outsAt0_B V c t h0 h1]
      unfold ptB; dsimp only
      rw [PhiS_castSucc V c t, PhiS_pos V c _ _ hz]
      iintro ⟨⟨⟨HS0, HS1, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 _ _).2.2.2 _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [H7]; · iexact H7
      isplitl [HS0]; · iexact HS0
      isplitl [HS1]; · iexact HS1
      iintro ⟨H0, H1, H2, H3, H4, ⟨%e5, H5⟩, H6, H7, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (coverB_s0 V c t h0 h1 _ _)
          isplitl [HS1]
          · unfold owns; iexists _; isplitr
            swap; · iexact HS1
            ipureintro; exact View.read_writes_of_cover _ _ _ _ _ (coverB_s1 V c t h0 h1 _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (coverB_5 V c t h0 h1 _ _)
      isplitl [H6]; · iexists _; iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives back what the launch lent: the running sums' contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 20 := N0_eq; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.KernelIdeal.Frame

end
-- ==== Proof.KernelIdealFrame.Region1.lean ====
/-
  The second kernel region (normalise each row block with the column statistics, scale and shift, clip at zero, and
  apply the second linear layer): each grid point reads one block of rows and the six small operands whole and
  stores one block of rows; it keeps nothing between points. Stated at a parameter: the buffer contents the region finds.
-/
import proofs.«121117_j83167746719884_1_alg».proof.Proof.Gen.KernelIdeal.Launch
import proofs.«121117_j83167746719884_1_alg».proof.Proof.Gen.KernelIdeal.Skeleton
import proofs.«121117_j83167746719884_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

abbrev rRows1 : Rect S5000x128 := (Rect.unit (s := S5000x128) ![0, 0] S5000x128.size inb_S5000x128_S5000x128_0_0)
abbrev rFeat1 : Rect S1x128 := (Rect.unit (s := S1x128) ![0, 0] S1x128.size inb_S1x128_S1x128_0_0)
abbrev rSq1 : Rect S128x128 := (Rect.unit (s := S128x128) ![0, 0] S128x128.size inb_S128x128_S128x128_0_0)

/-! ## What the body leaves in the output window's buffer -/

/-- The output block after the body, from the seven input blocks: its one store, of the whole block. -/
def out1_7 (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) : Vec F S5000x128 .f32 :=
  View.canon [⟨rRows1, k1_pay1 (View.ld x0 rRows1) (View.ld x2 rFeat1) (View.ld x1 rFeat1) (View.ld x3 rFeat1) (View.ld x4 rFeat1) (View.ld x5 rSq1) (View.ld x6 rFeat1)⟩]

/-- The one store covers the buffer. -/
theorem cover1_7 (p0 : Vec F S5000x128 .f32) (y : S5000x128.Idx) :
    ∃ pc ∈ ([⟨rRows1, p0⟩] : List (View.Piece (Elt F) S5000x128 .f32)), y ∈ pc.1.set :=
  View.cover_of_tiled [⟨rRows1, p0⟩] S5000x128.size (by rfl) y

/-! ## The body's triple -/

set_option maxHeartbeats 4000000 in
/-- On whole staging buffers, the inputs' at contents `xW` and the output's at anything, the body runs to the
    continuation holding the inputs' as they were and the output's at `out1_7` of the inputs'. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S1x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__kernel_b i arg1 harg1 arg2 harg2 arg3 harg3 arg4 harg4 arg5 harg5 arg6 harg6 arg7 harg7 arg8 harg8) K := by
  simp only [cc1__kernel_b_eq_skeleton]; unfold cc1__kernel_b_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of the second pipeline on core `c`: the arrays as the region finds them; after the body at point
    `t` each input's buffer at its block and the output's at `out1_7` of the input blocks; the invariant is what the
    pipeline lends a kernel that names no resource of its own; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KernelIdealFrame.Run.lean ====
/-
  The whole program as a run of four segments: the host operations before the first kernel region (slicing the edge
  list, gathering and scatter-adding the neighbour rows, transposing the weights), the first region, the host operations
  between the regions (the column means and variances from the two sums), the second region. The buffer contents at each
  segment boundary are a fold from the launch memory: a host stretch applies its operations, a region leaves its arrays
  at what its write-backs leave and every other buffer as entered. Every weakly fair execution terminates, and the final
  memory holds every unscoped buffer at the last boundary's contents; the arguments end as launched because no host
  operation and no region writes one.
-/
import proofs.«121117_j83167746719884_1_alg».proof.Proof.KernelIdealFrame.Region0
import proofs.«121117_j83167746719884_1_alg».proof.Proof.KernelIdealFrame.Region1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters, every weakly fair execution of @main terminates, nothing faulting, and
    the final memory holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_main m ρ)

/-- The result array's final contents: what the second region's write-backs leave. -/
theorem result_mem : θ_run defs (onTc (τ := τ) (main (F := F))) ⟨m, fun _ => 0, ρ⟩ (fun r => ∀ c : Dev nD,
      r.2.mem ((c.tc : Thread nD τ).loc main_v28) = (dat1 (V3 m ρ) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_v28 (by decide))).trans (W4_arr m ρ c 7),
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_main m ρ)

end Cert.KernelIdeal.Frame

end
-- ==== Proof.Spec.lean ====
/-
  The mathematics both programs compute, over the extended reals, index by index.

  A graph layer on 100000 nodes with 128 features. Given the node features `x`, the aggregated neighbour features
  `nbr` (row `r` of `nbr` is the sum of the rows of `x` over the edges that end at node `r`; both programs
  compute it by the same two host operations, so here it is a parameter), and the weights:

    comb r k  = (1 + eps) · x r k + nbr r k
    lin1 r j  = (∑ k, comb r k · W1 j k) + b1 j
    mean j    = (∑ r, lin1 r j) / 100000
    var j     = the column's biased variance, written in one of two ways (below)
    act r k   = max (((lin1 r k − mean k) · rsqrt (var k + ε)) · γ k + β k) 0
    out r j   = (∑ k, act r k · W2 j k) + b2 j

  One program takes the variance as the mean of the squares minus the square of the mean (`varMoments`), the other
  as the mean of the squared deviations (`varCentered`). The float literals stay as the words the programs print
  (`one`, `count`, `epsBN`); the same word on both sides is never evaluated, except `count`, which the variance
  identity needs as the real number 100000.
-/
import Idealize.ShloMosaic.PureOps.Ideal
import Idealize.ShloMosaic.Lib.ValueIdx

open scoped BigOperators

noncomputable section

namespace Cert.Spec

open Idealize.ShloMosaic Idealize.ShloMosaic.ValueIdx

/-- [100000, 128]: one row per node. -/
abbrev Rows : Shape := ⟨2, ![100000, 128]⟩
/-- [128, 128]: a weight matrix, stored output feature first. -/
abbrev Sq : Shape := ⟨2, ![128, 128]⟩
/-- [128]: one entry per feature. -/
abbrev Feat : Shape := ⟨1, ![128]⟩
/-- [1]: the self-loop weight. -/
abbrev One : Shape := ⟨1, ![1]⟩

/-- The word of the float literal 1.0. -/
def one : EReal := Ideal.ofBits .f32 0x3F800000#32
/-- The word of the float literal 100000.0, the number of nodes. -/
def count : EReal := Ideal.ofBits .f32 0x47C35000#32
/-- The word of the batch-normalisation epsilon (the float nearest 1e-5). -/
def epsBN : EReal := Ideal.ofBits .f32 0x3727C5AC#32

variable (x nbr : Rows.Idx → EReal) (eps : One.Idx → EReal) (W1 W2 : Sq.Idx → EReal) (b1 γ β b2 : Feat.Idx → EReal)

/-- A node's own features, weighted by `1 + eps`, plus its neighbours' sum. -/
def comb (r : Fin 100000) (k : Fin 128) : EReal :=
  (one + eps (ix1 0)) * x (ix2 r k) + nbr (ix2 r k)

/-- The first linear layer: row `r` of `comb` against row `j` of `W1`, plus the bias. -/
def lin1 (r : Fin 100000) (j : Fin 128) : EReal :=
  (∑ k : Fin 128, comb x nbr eps r k * W1 (ix2 j k)) + b1 (ix1 j)

/-- A column's mean over the nodes. -/
def mean (h : Fin 100000 → Fin 128 → EReal) (j : Fin 128) : EReal :=
  Ideal.div (∑ r : Fin 100000, h r j) count

/-- A column's biased variance as the mean of the squares minus the square of the mean. -/
def varMoments (h : Fin 100000 → Fin 128 → EReal) (j : Fin 128) : EReal :=
  Ideal.div (∑ r : Fin 100000, h r j * h r j) count - mean h j * mean h j

/-- A column's biased variance as the mean of the squared deviations from the mean. -/
def varCentered (h : Fin 100000 → Fin 128 → EReal) (j : Fin 128) : EReal :=
  Ideal.div (∑ r : Fin 100000, (h r j - mean h j) * (h r j - mean h j)) count

/-- Normalise a column entry with the column's mean and variance, scale, shift, and clip at zero. -/
def act (h : Fin 100000 → Fin 128 → EReal) (var : Fin 128 → EReal) (r : Fin 100000) (k : Fin 128) : EReal :=
  max (((h r k - mean h k) * Ideal.rsqrt (var k + epsBN)) * γ (ix1 k) + β (ix1 k)) 0

/-- The second linear layer over the activations, for a given reading of the variance. -/
def out (var : (Fin 100000 → Fin 128 → EReal) → Fin 128 → EReal) (r : Fin 100000) (j : Fin 128) : EReal :=
  (∑ k : Fin 128, act γ β (lin1 x nbr eps W1 b1) (var (lin1 x nbr eps W1 b1)) r k * W2 (ix2 j k)) + b2 (ix1 j)

/-- The layer with the variance taken from the first two moments. -/
def outMoments (r : Fin 100000) (j : Fin 128) : EReal := out x nbr eps W1 W2 b1 γ β b2 varMoments r j

/-- The layer with the variance taken from the squared deviations. -/
def outCentered (r : Fin 100000) (j : Fin 128) : EReal := out x nbr eps W1 W2 b1 γ β b2 varCentered r j

end Cert.Spec

end
-- ==== Proof.KernelIdealValue.Pay.lean ====
/-
  The two kernels' stored values, read at an index over the extended reals. Each value is a pure term over what
  the kernel body loaded before it; here it is read coordinate by coordinate: the zero rows the first grid step
  writes, the first linear layer of a block of rows (a contraction over the 128 features plus the bias), that
  block's column sums and squares, the running column sum, and the second kernel's normalised, clipped block
  contracted with the second weight matrix.
-/
import proofs.«121117_j83167746719884_1_alg».proof.Proof.Gen.KernelIdeal.Skeleton
import proofs.«121117_j83167746719884_1_alg».proof.Proof.Spec
import Idealize.ShloMosaic.PureOps.Ideal.Laws
import Idealize.ShloMosaic.Lib.ValueIdx
import Idealize.ShloMosaic.Lib.Pipeline.Value
import Idealize.ShloMosaic.Lib.ValueLayout

open scoped BigOperators

noncomputable section

namespace Cert.KernelIdeal.Value

open Cert.KernelIdeal Cert.KernelIdeal.Gen Idealize.ShloMosaic Idealize.ShloMosaic.ValueIdx

/-- The first zero row: a broadcast of the zero word, which is the number zero. -/
theorem pay2_apply (q : Fin 128) : k0_pay2 (F := Ideal) (ix2 0 q) = 0 := by
  unfold k0_pay2
  simp only [shapeCast_self]
  exact Ideal.ofBits_zero_f32

/-- The second zero row likewise. -/
theorem pay3_apply (q : Fin 128) : k0_pay3 (F := Ideal) (ix2 0 q) = 0 := by
  unfold k0_pay3
  simp only [shapeCast_self]
  exact Ideal.ofBits_zero_f32

/-! ## The contraction of a block of rows with a square matrix -/

/-- The left operand's row coordinate is the result's row. -/
theorem lhs_mm_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted one. -/
theorem lhs_mm_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's row coordinate is the contracted one. -/
theorem rhs_mm_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's column coordinate is the result's column. -/
theorem rhs_mm_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product accumulated into the zero splat, at (p, q): the sum over the contracted coordinate k of the left
    operand at (p, k) times the right operand at (k, q). -/
theorem mm_apply {φ₁ φ₂ : FTy} (a : FVec Ideal S5000x128 φ₁) (b : FVec Ideal S128x128 φ₂) (p : Fin 5000) (q : Fin 128) :
    matmul dot_S5000x128_S128x128_S5000x128_1_0_0_1_n_n none a b (constant (F := Ideal) S5000x128 .f32 0x00000000#32) (ix2 p q)
      = ∑ k : Fin 128, a (ix2 p k) * b (ix2 k q) := by
  show FloatOps.matmul dot_S5000x128_S128x128_S5000x128_1_0_0_1_n_n none a b (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun x => Fin.ext (by
    match x with
    | ⟨0, _⟩ => exact lhs_mm_0 _ _
    | ⟨1, _⟩ => exact (lhs_mm_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun x => Fin.ext (by
    match x with
    | ⟨0, _⟩ => exact (rhs_mm_0 _ _).trans hk
    | ⟨1, _⟩ => exact rhs_mm_1 _ _)
  rw [el, er]

/-! ## Layout operations at an index -/

/-- A one-entry array broadcast over the block reads its one entry everywhere. -/
theorem bcast_11_apply {α : Type} (v : S1x1.Idx → α) (p : Fin 5000) (k : Fin 128) :
    broadcastTo S5000x128 v broadcasts_S1x1_S5000x128 (ix2 p k) = v (ix2 0 0) := by
  refine broadcastTo_apply v broadcasts_S1x1_S5000x128 (ix2 p k) (ix2 0 0) fun ax => ?_
  match ax with
  | ⟨0, _⟩ => rfl
  | ⟨1, _⟩ => rfl

/-- A lane sum over the rows of a block, at column q: the sum over the rows p of the entry (p, q). -/
theorem colSum_apply (src : FVec Ideal S5000x128 .f32) (hφ : FKind.Formats .f32)
    (hacc : (0x00000000#32 : BitVec (FTy.bits .f32)) = FKind.add.neutral .f32 hφ) (q : Fin 128) :
    multiReduction (F := Ideal) .add [0] S128 src 0x00000000#32 reduces_S5000x128_S128 hφ hacc (ix1 q)
      = ∑ p : Fin 5000, src (ix2 p q) := by
  refine (Ideal.multiReduction_add_single src 0x00000000#32 reduces_S5000x128_S128 hφ hacc (ix1 q)).trans ?_
  exact Finset.sum_congr rfl fun p _ => congrArg src (funext fun x => Fin.ext (by
    match x with
    | ⟨0, _⟩ => rfl
    | ⟨1, _⟩ => rfl))

/-! ## The first kernel's values -/

/-- The first linear layer on a block, at (p, q): the combination of the node's own row (weighted by one plus the
    self-loop weight) with its neighbours' sum, contracted with the weights, plus the bias. Rounding the operands
    to the narrower format is the identity over the extended reals. -/
theorem pay4_apply (v3 : Vec Ideal S1x1 .f32) (v7 v10 : Vec Ideal S5000x128 .f32) (v14 : Vec Ideal S128x128 .f32) (v18 : Vec Ideal S1x128 .f32) (p : Fin 5000) (q : Fin 128) :
    k0_pay4 (F := Ideal) v3 v7 v10 v14 v18 (ix2 p q) = (∑ k : Fin 128, ((Cert.Spec.one + v3 (ix2 0 0)) * v7 (ix2 p k) + v10 (ix2 p k)) * v14 (ix2 k q)) + v18 (ix2 0 q) := by
  unfold k0_pay4
  simp only [shapeCast_self]
  rw [addf_apply, mm_apply, broadcastTo_1b_ab_apply]
  simp only [truncf_apply, addf_apply, mulf_apply, bcast_11_apply, broadcast_apply]
  rfl

/-- The running column sum after a block, at column q: what was there plus the block's column sum. -/
theorem pay5_apply (v3 : Vec Ideal S1x1 .f32) (v7 v10 : Vec Ideal S5000x128 .f32) (v14 : Vec Ideal S128x128 .f32) (v18 v23 : Vec Ideal S1x128 .f32) (q : Fin 128) :
    k0_pay5 (F := Ideal) v3 v7 v10 v14 v18 v23 (ix2 0 q) = v23 (ix2 0 q) + ∑ p : Fin 5000, k0_pay4 (F := Ideal) v3 v7 v10 v14 v18 (ix2 p q) := by
  unfold k0_pay5
  simp only [shapeCast_self]
  rw [addf_apply, shapeCast_a_1a_apply]
  exact congrArg (v23 (ix2 0 q) + ·) (colSum_apply (k0_pay4 (F := Ideal) v3 v7 v10 v14 v18) _ _ q)

/-- The block's squares, entry by entry. -/
theorem pay6_apply (v3 : Vec Ideal S1x1 .f32) (v7 v10 : Vec Ideal S5000x128 .f32) (v14 : Vec Ideal S128x128 .f32) (v18 : Vec Ideal S1x128 .f32) (p : Fin 5000) (q : Fin 128) :
    k0_pay6 (F := Ideal) v3 v7 v10 v14 v18 (ix2 p q) = k0_pay4 (F := Ideal) v3 v7 v10 v14 v18 (ix2 p q) * k0_pay4 (F := Ideal) v3 v7 v10 v14 v18 (ix2 p q) := by
  unfold k0_pay6
  rfl

/-- The second running column sum after a block, at column q: what was there plus the column sum of the block
    it is given. -/
theorem pay1_apply (v30 : Vec Ideal S1x128 .f32) (v31 : FVec Ideal S5000x128 .f32) (q : Fin 128) :
    k0_pay1 (F := Ideal) v30 v31 (ix2 0 q) = v30 (ix2 0 q) + ∑ p : Fin 5000, v31 (ix2 p q) := by
  unfold k0_pay1
  simp only [shapeCast_self]
  rw [addf_apply, shapeCast_a_1a_apply]
  exact congrArg (v30 (ix2 0 q) + ·) (colSum_apply v31 _ _ q)

/-! ## The second kernel's value -/

/-- A reciprocal square root taken entry by entry. -/
theorem rsqrt_apply {s : Shape} {φ : FTy} (a : FVec Ideal s φ) (i : s.Idx) : rsqrt a i = Ideal.rsqrt (a i) := rfl

/-- The second linear layer on a block, at (p, q): each entry of the block less its column's mean, times the
    reciprocal square root of the column's variance plus the epsilon word, scaled, shifted and clipped at the zero
    word (the number zero), contracted with the second weights, plus the bias. -/
theorem k1_pay1_apply (v0 : Vec Ideal S5000x128 .f32) (v2 v7 v13 v17 : Vec Ideal S1x128 .f32) (v24 : Vec Ideal S128x128 .f32) (v28 : Vec Ideal S1x128 .f32) (p : Fin 5000) (q : Fin 128) :
    k1_pay1 (F := Ideal) v0 v2 v7 v13 v17 v24 v28 (ix2 p q)
      = (∑ k : Fin 128, max (((v0 (ix2 p k) - v7 (ix2 0 k)) * Ideal.rsqrt (v2 (ix2 0 k) + Cert.Spec.epsBN)) * v13 (ix2 0 k) + v17 (ix2 0 k)) 0 * v24 (ix2 k q)) + v28 (ix2 0 q) := by
  unfold k1_pay1
  simp only [shapeCast_self]
  rw [addf_apply, mm_apply, broadcastTo_1b_ab_apply]
  simp only [truncf_apply, maximumf_apply, addf_apply, mulf_apply, subf_apply, rsqrt_apply, broadcastTo_1b_ab_apply,
    broadcast_apply, Ideal.ofBits_def, Ideal.ofBits_zero_f32]
  rfl

end Cert.KernelIdeal.Value

end
-- ==== Proof.KernelIdealValue.Norm.lean ====
/-
  The second region's output array as one function of the arrays the region finds.

  Each of the 20 grid points reads rows 5000·t … 5000·t + 4999 of the first-layer array and the six small
  operands whole, and writes the same rows of the output. So every point's block is the restriction of one
  whole-array function: normalise an entry with its column's mean and variance, scale, shift, clip at zero,
  and take the second linear layer over the features. The 20 row blocks tile the 100000 rows (row r lies in
  block r / 5000), hence the array ends holding that function everywhere.
-/
import proofs.«121117_j83167746719884_1_alg».proof.Proof.KernelIdealFrame.Region1
import proofs.«121117_j83167746719884_1_alg».proof.Proof.Spec
import proofs.«121117_j83167746719884_1_alg».proof.Proof.KernelIdealValue.Pay
import Idealize.ShloMosaic.Lib.Pipeline.Value
import Idealize.ShloMosaic.Lib.ValueIdx

open scoped BigOperators

noncomputable section

namespace Cert.KernelIdeal.Value

open Cert.KernelIdeal Cert.KernelIdeal.Gen Cert.KernelIdeal.Frame Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-- normalise, scale, shift, clip at zero, second linear layer: the whole-array function of the region's operands -/
def normOut (h : S100000x128.Idx → EReal) (mean var γ β : S1x128.Idx → EReal) (w2t : S128x128.Idx → EReal) (b2 : S1x128.Idx → EReal) (r : Fin 100000) (j : Fin 128) : EReal :=
  (∑ k : Fin 128, max (((h (ix2 r k) - mean (ix2 0 k)) * Ideal.rsqrt (var (ix2 0 k) + Cert.Spec.epsBN)) * γ (ix2 0 k) + β (ix2 0 k)) 0 * w2t (ix2 k j)) + b2 (ix2 0 j)

/-- The same function read at an index of the output array. -/
abbrev normArr (h : S100000x128.Idx → EReal) (mean var γ β : S1x128.Idx → EReal) (w2t : S128x128.Idx → EReal) (b2 : S1x128.Idx → EReal) : S100000x128.Idx → EReal :=
  fun i => normOut h mean var γ β w2t b2 (i 0) (i 1)

namespace Norm

/-- The zero offsets of a whole-buffer access. -/
theorem zeroOff : (![0, 0] : Fin 2 → Nat) = fun _ => 0 := funext fun a => by fin_cases a <;> rfl

/-- The index maps over the 20 points: the row windows (input 0, output 7) are at block (t, 0), the six small
    operands at block (0, 0). -/
theorem blockIdx : ∀ t : Fin cfg1.N,
    win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ t.val < 20 :=
  (by decide +kernel : ∀ t : Fin grid1.N, _)

/-- The row block at point `t` is rows 5000·t … of the first-layer array. -/
theorem rows_read (c : Dev nD) (t : Fin cfg1.N) (y : S5000x128.Idx) (i : S100000x128.Idx)
    (h0 : (i 0).val = 5000 * t.val + (y 0).val) (h1 : (i 1).val = (y 1).val) :
    (iblk1 (F := Ideal) V c 0 t : Vec Ideal S5000x128 .f32) y = (V c main_v21_0 : S100000x128.Idx → EReal) i := by
  obtain ⟨e0, e1, -⟩ := blockIdx t
  unfold iblk1
  rw [View.read_apply]
  show V c main_v21_0 _ = V c main_v21_0 _
  congr 1
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The means' block at every point is the means' array. -/
theorem mean_read (c : Dev nD) (t : Fin cfg1.N) :
    (iblk1 (F := Ideal) V c 1 t : Vec Ideal S1x128 .f32) = (V c main_v23 : S1x128.Idx → EReal) := by
  obtain ⟨-, -, -, -, e0, e1, -⟩ := blockIdx t
  funext y
  unfold iblk1
  rw [View.read_apply]
  show V c main_v23 _ = V c main_v23 _
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The variances' block at every point is the variances' array. -/
theorem var_read (c : Dev nD) (t : Fin cfg1.N) :
    (iblk1 (F := Ideal) V c 2 t : Vec Ideal S1x128 .f32) = (V c main_v27 : S1x128.Idx → EReal) := by
  obtain ⟨-, -, -, -, -, -, e0, e1, -⟩ := blockIdx t
  funext y
  unfold iblk1
  rw [View.read_apply]
  show V c main_v27 _ = V c main_v27 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The scale's block at every point is the scale's array. -/
theorem scale_read (c : Dev nD) (t : Fin cfg1.N) :
    (iblk1 (F := Ideal) V c 3 t : Vec Ideal S1x128 .f32) = (V c main_v18 : S1x128.Idx → EReal) := by
  obtain ⟨-, -, -, -, -, -, -, -, e0, e1, -⟩ := blockIdx t
  funext y
  unfold iblk1
  rw [View.read_apply]
  show V c main_v18 _ = V c main_v18 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The shift's block at every point is the shift's array. -/
theorem shift_read (c : Dev nD) (t : Fin cfg1.N) :
    (iblk1 (F := Ideal) V c 4 t : Vec Ideal S1x128 .f32) = (V c main_v19 : S1x128.Idx → EReal) := by
  obtain ⟨-, -, -, -, -, -, -, -, -, -, e0, e1, -⟩ := blockIdx t
  funext y
  unfold iblk1
  rw [View.read_apply]
  show V c main_v19 _ = V c main_v19 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- The weight matrix's block at every point is the weight matrix. -/
theorem weight_read (c : Dev nD) (t : Fin cfg1.N) :
    (iblk1 (F := Ideal) V c 5 t : Vec Ideal S128x128 .f32) = (V c main_v15 : S128x128.Idx → EReal) := by
  obtain ⟨-, -, -, -, -, -, -, -, -, -, -, -, e0, e1, -⟩ := blockIdx t
  funext y
  unfold iblk1
  rw [View.read_apply]
  show V c main_v15 _ = V c main_v15 _
  congr 1
  funext a
  apply Fin.ext
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

/-- The bias's block at every point is the bias's array. -/
theorem bias_read (c : Dev nD) (t : Fin cfg1.N) :
    (iblk1 (F := Ideal) V c 6 t : Vec Ideal S1x128 .f32) = (V c main_v17 : S1x128.Idx → EReal) := by
  obtain ⟨-, -, -, -, -, -, -, -, -, -, -, -, -, -, e0, e1, -⟩ := blockIdx t
  funext y
  unfold iblk1
  rw [View.read_apply]
  show V c main_v17 _ = V c main_v17 _
  congr 1
  funext a
  apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- The payload of a row block whose rows are rows of `h`, read at a block index, is the whole-array function
    at the array index those rows sit at. -/
theorem pay_block (x0 : Vec Ideal S5000x128 .f32) (h : S100000x128.Idx → EReal) (mean var γ β : S1x128.Idx → EReal)
    (w2t : S128x128.Idx → EReal) (b2 : S1x128.Idx → EReal) (y : S5000x128.Idx) (i : S100000x128.Idx)
    (hrow : ∀ k : Fin 128, x0 (ix2 (y 0) k) = h (ix2 (i 0) k)) (hcol : (i 1).val = (y 1).val) :
    k1_pay1 (F := Ideal) x0 var mean γ β w2t b2 y = normArr h mean var γ β w2t b2 i := by
  have hc : (i 1 : Fin 128) = (y 1 : Fin 128) := Fin.ext hcol
  refine (congrArg (k1_pay1 (F := Ideal) x0 var mean γ β w2t b2) (eq_ix2 (n0 := 5000) (n1 := 128) y)).trans ?_
  refine (k1_pay1_apply x0 var mean γ β w2t b2 (y 0) (y 1)).trans ?_
  show _ = normOut h mean var γ β w2t b2 (i 0) (i 1)
  unfold normOut
  rw [hc]
  simp only [hrow]

/-- What point `t` writes back is block `t` of the whole-array function of the arrays the region finds. -/
theorem flushed1_eq (c : Dev nD) (t : Fin cfg1.N) :
    (dat1 (F := Ideal) V c).flushed 7 t = ((cfg1.win 7).blk t).view.read (Elt Ideal)
      (normArr (V c main_v21_0) (V c main_v23) (V c main_v27) (V c main_v18) (V c main_v19) (V c main_v15) (V c main_v17)) := by
  show (cfg1.win 7).cut (grid1.coords t) ((dat1 (F := Ideal) V c).after 7 t) = _
  rw [after1_7]
  unfold out1_7
  rw [View.canon_unit_zero zeroOff]
  simp only [View.ld_unit_zero (S := S5000x128) zeroOff, View.ld_unit_zero (S := S1x128) zeroOff, View.ld_unit_zero (S := S128x128) zeroOff]
  rw [mean_read, var_read, scale_read, shift_read, weight_read, bias_read]
  obtain ⟨-, -, e0, e1, -⟩ := blockIdx t
  funext y
  rw [View.read_apply]
  refine pay_block (iblk1 (F := Ideal) V c 0 t) (V c main_v21_0) (V c main_v23) (V c main_v27) (V c main_v18) (V c main_v19) (V c main_v15) (V c main_v17) y (((cfg1.win 7).blk t).view.emb y) (fun k => ?_) ?_
  · refine rows_read V c t _ _ ?_ rfl
    show win1_7.index t (0 : Fin 2) * 5000 + 1 * (y 0).val = 5000 * t.val + (y 0).val
    rw [e0]; omega
  · show win1_7.index t (1 : Fin 2) * 128 + 1 * (y 1).val = (y 1).val
    rw [e1]; omega

/-- An index of the output array is in point `t`'s block iff each coordinate is in the block's range on its axis. -/
theorem mem_rowBlock (t : Fin cfg1.N) (i : S100000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v28).slice (win1_7.rect t)).set ↔ _
  rw [View.set_slice_whole, Rect.mem_set_unit]
  exact Iff.rfl

/-- Every index of the output array is in some point's block: row `r` is in block `r / 5000`. -/
theorem rows_cover (i : S100000x128.Idx) :
    ∃ t : Fin cfg1.N, (cfg1.win 7).flush t = true ∧ i ∈ ((cfg1.win 7).blk t).view.set := by
  have hi0 : (i 0).val < 100000 := idx2_lt0 i
  have hi1 : (i 1).val < 128 := idx2_lt1 i
  have hN : cfg1.N = 20 := N_1
  let t : Fin cfg1.N := ⟨(i 0).val / 5000, by rw [hN]; omega⟩
  obtain ⟨-, -, e0, e1, -⟩ := blockIdx t
  have ht : t.val = (i 0).val / 5000 := rfl
  refine ⟨t, flush1_7 t, ?_⟩
  rw [mem_rowBlock]
  intro a
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 128 ≤ (i 1).val ∧ (i 1).val < win1_7.index t (1 : Fin 2) * 128 + 128; rw [e1]; omega

end Norm

/-- The output array after the region is the whole-array function of the arrays the region finds. -/
theorem final1_arr (c : Dev nD) :
    (dat1 (F := Ideal) V c).arrAt 7 cfg1.N = normArr (V c main_v21_0) (V c main_v23) (V c main_v27) (V c main_v18) (V c main_v19) (V c main_v15) (V c main_v17) :=
  (dat1 (F := Ideal) V c).arrAt_eq_of_cover 7 _ (fun t _ => Norm.flushed1_eq V c t) Norm.rows_cover

theorem final1 (c : Dev nD) (r : Fin 100000) (j : Fin 128) :
    (dat1 (F := Ideal) V c).arrAt 7 cfg1.N (ix2 r j) = normOut (V c main_v21_0) (V c main_v23) (V c main_v27) (V c main_v18) (V c main_v19) (V c main_v15) (V c main_v17) r j := by
  rw [final1_arr]

end Cert.KernelIdeal.Value

end
-- ==== Proof.KernelIdealFrame.Pieces0.lean ====
/-
  The first kernel region's per-point pieces, named. At each grid point the body stores ONE covering piece into the
  row-block output: the first linear layer's rows of that point's blocks. Into each running sum it stores the sum
  it loaded plus the column sums of those rows (respectively of their squares); at the first point the sum loaded is
  the zero block stored just before, at every later point it is what the point before left. At the last point each
  running sum is, after its update, loaded again and copied whole into its sum output.
-/
import proofs.«121117_j83167746719884_1_alg».proof.Proof.KernelIdealFrame.Region0
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The pieces -/

/-- The unit rectangle's offsets are zero on both axes. -/
theorem hz2 : (![0, 0] : Fin 2 → Nat) = fun _ => 0 := funext fun a => by fin_cases a <;> rfl

/-- The first running sum's whole buffer, set to contents X, reads X. -/
theorem read_scratch0 (X : Vec F S1x128 .f32) :
    View.read (Elt F) (View.whole cc0_scratch0) ((Memref.isWhole_whole _ : (scM0_0).IsWhole).unread X) = X :=
  (Memref.isWhole_whole _ : (scM0_0).IsWhole).read_unread X
/-- The second running sum's whole buffer, set to contents X, reads X. -/
theorem read_scratch1 (X : Vec F S1x128 .f32) :
    View.read (Elt F) (View.whole cc0_scratch1) ((Memref.isWhole_whole _ : (scM0_1).IsWhole).unread X) = X :=
  (Memref.isWhole_whole _ : (scM0_1).IsWhole).read_unread X

/-- the first linear layer's rows at point t, from the five input blocks (eps, x, nbr, W1ᵀ, b1 in the payload's argument order) -/
abbrev rows0 (c : Dev nD) (t : Fin cfg0.N) : Vec F S5000x128 .f32 := k0_pay4 (iblk0 V c 2 t) (iblk0 V c 0 t) (iblk0 V c 1 t) (iblk0 V c 3 t) (iblk0 V c 4 t)
/-- their squares, entry by entry -/
abbrev sq0 (c : Dev nD) (t : Fin cfg0.N) : Vec F S5000x128 .f32 := k0_pay6 (iblk0 V c 2 t) (iblk0 V c 0 t) (iblk0 V c 1 t) (iblk0 V c 3 t) (iblk0 V c 4 t)

/-! ### The first point -/

/-- The row-block output holds the one piece stored there: the rows of this point's blocks. -/
theorem ptA_rows (c : Dev nD) (t : Fin cfg0.N) (h0 : t.val % 20 = 0) (h1 : ¬t.val % 20 = 19) :
    (ptA V c t h0 h1).1 = rows0 V c t := by
  unfold ptA
  dsimp only
  rw [View.read_writes_eq_canon _ _ _ (coverA_5 V c t h0 h1)]
  unfold runA kernelRun0_A
  dsimp only
  sl_unfold_words
  rw [View.canon_unit_zero hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

/-- The running sum holds its later piece: the zero block stored first, read back, plus the rows' column sums. -/
theorem ptA_sum (c : Dev nD) (t : Fin cfg0.N) (h0 : t.val % 20 = 0) (h1 : ¬t.val % 20 = 19) :
    (ptA V c t h0 h1).2.2.2.1 = k0_pay5 (iblk0 V c 2 t) (iblk0 V c 0 t) (iblk0 V c 1 t) (iblk0 V c 3 t) (iblk0 V c 4 t) (k0_pay2 (F := F)) := by
  unfold ptA
  dsimp only
  rw [View.read_writes_eq_canon _ _ _ (coverA_s0 V c t h0 h1)]
  unfold runA kernelRun0_A
  dsimp only
  sl_unfold_words
  rw [View.canon_cons_unit_zero (S := S1x128) hz2, View.readCov_unit_zero (S := S1x128) _ hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

/-- The running sum of squares likewise: the zero block read back, plus the squares' column sums. -/
theorem ptA_sumsq (c : Dev nD) (t : Fin cfg0.N) (h0 : t.val % 20 = 0) (h1 : ¬t.val % 20 = 19) :
    (ptA V c t h0 h1).2.2.2.2 = k0_pay1 (k0_pay3 (F := F)) (sq0 V c t) := by
  unfold ptA
  dsimp only
  rw [View.read_writes_eq_canon _ _ _ (coverA_s1 V c t h0 h1)]
  unfold runA kernelRun0_A
  dsimp only
  sl_unfold_words
  rw [View.canon_cons_unit_zero (S := S1x128) hz2, View.readCov_unit_zero (S := S1x128) _ hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

/-! ### A middle point -/

/-- The row-block output holds the one piece stored there: the rows of this point's blocks. -/
theorem ptB_rows (c : Dev nD) (t : Fin cfg0.N) (h0 : ¬t.val % 20 = 0) (h1 : ¬t.val % 20 = 19) (xs0 xs1 : Vec F S1x128 .f32) :
    (ptB V c t h0 h1 xs0 xs1).1 = rows0 V c t := by
  unfold ptB
  dsimp only
  rw [View.read_writes_eq_canon _ _ _ (coverB_5 V c t h0 h1 xs0 xs1)]
  unfold runB kernelRun0_B
  dsimp only
  sl_unfold_words
  rw [View.canon_unit_zero hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

/-- The running sum holds its one piece: what the point before left, plus the rows' column sums. -/
theorem ptB_sum (c : Dev nD) (t : Fin cfg0.N) (h0 : ¬t.val % 20 = 0) (h1 : ¬t.val % 20 = 19) (xs0 xs1 : Vec F S1x128 .f32) :
    (ptB V c t h0 h1 xs0 xs1).2.2.2.1 = k0_pay5 (iblk0 V c 2 t) (iblk0 V c 0 t) (iblk0 V c 1 t) (iblk0 V c 3 t) (iblk0 V c 4 t) xs0 := by
  unfold ptB
  dsimp only
  rw [View.read_writes_eq_canon _ _ _ (coverB_s0 V c t h0 h1 xs0 xs1)]
  unfold runB kernelRun0_B
  dsimp only
  sl_unfold_words
  rw [View.canon_unit_zero hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

/-- The running sum of squares holds its one piece: what the point before left, plus the squares' column sums. -/
theorem ptB_sumsq (c : Dev nD) (t : Fin cfg0.N) (h0 : ¬t.val % 20 = 0) (h1 : ¬t.val % 20 = 19) (xs0 xs1 : Vec F S1x128 .f32) :
    (ptB V c t h0 h1 xs0 xs1).2.2.2.2 = k0_pay1 xs1 (sq0 V c t) := by
  unfold ptB
  dsimp only
  rw [View.read_writes_eq_canon _ _ _ (coverB_s1 V c t h0 h1 xs0 xs1)]
  unfold runB kernelRun0_B
  dsimp only
  sl_unfold_words
  rw [View.canon_unit_zero hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

/-! ### The last point -/

/-- The row-block output holds the one piece stored there: the rows of this point's blocks. -/
theorem ptC_rows (c : Dev nD) (t : Fin cfg0.N) (h0 : ¬t.val % 20 = 0) (h1 : t.val % 20 = 19) (xs0 xs1 : Vec F S1x128 .f32) :
    (ptC V c t h0 h1 xs0 xs1).1 = rows0 V c t := by
  unfold ptC
  dsimp only
  rw [View.read_writes_eq_canon _ _ _ (coverC_5 V c t h0 h1 xs0 xs1)]
  unfold runC kernelRun0_C
  dsimp only
  sl_unfold_words
  rw [View.canon_unit_zero hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

/-- The running sum holds its one piece: what the point before left, plus the rows' column sums. -/
theorem ptC_sum (c : Dev nD) (t : Fin cfg0.N) (h0 : ¬t.val % 20 = 0) (h1 : t.val % 20 = 19) (xs0 xs1 : Vec F S1x128 .f32) :
    (ptC V c t h0 h1 xs0 xs1).2.2.2.1 = k0_pay5 (iblk0 V c 2 t) (iblk0 V c 0 t) (iblk0 V c 1 t) (iblk0 V c 3 t) (iblk0 V c 4 t) xs0 := by
  unfold ptC
  dsimp only
  rw [View.read_writes_eq_canon _ _ _ (coverC_s0 V c t h0 h1 xs0 xs1)]
  unfold runC kernelRun0_C
  dsimp only
  sl_unfold_words
  rw [View.canon_unit_zero hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

/-- The running sum of squares holds its one piece: what the point before left, plus the squares' column sums. -/
theorem ptC_sumsq (c : Dev nD) (t : Fin cfg0.N) (h0 : ¬t.val % 20 = 0) (h1 : t.val % 20 = 19) (xs0 xs1 : Vec F S1x128 .f32) :
    (ptC V c t h0 h1 xs0 xs1).2.2.2.2 = k0_pay1 xs1 (sq0 V c t) := by
  unfold ptC
  dsimp only
  rw [View.read_writes_eq_canon _ _ _ (coverC_s1 V c t h0 h1 xs0 xs1)]
  unfold runC kernelRun0_C
  dsimp only
  sl_unfold_words
  rw [View.canon_unit_zero hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

/-- The first sum output holds the updated running sum, loaded back after its one store and copied out whole. -/
theorem ptC_out6 (c : Dev nD) (t : Fin cfg0.N) (h0 : ¬t.val % 20 = 0) (h1 : t.val % 20 = 19) (xs0 xs1 : Vec F S1x128 .f32) :
    (ptC V c t h0 h1 xs0 xs1).2.1 = k0_pay5 (iblk0 V c 2 t) (iblk0 V c 0 t) (iblk0 V c 1 t) (iblk0 V c 3 t) (iblk0 V c 4 t) xs0 := by
  unfold ptC
  dsimp only
  rw [View.read_writes_eq_canon _ _ _ (coverC_6 V c t h0 h1 xs0 xs1)]
  unfold runC kernelRun0_C
  dsimp only
  sl_unfold_words
  rw [View.canon_unit_zero hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

/-- The second sum output holds the updated running sum of squares, loaded back and copied out whole. -/
theorem ptC_out7 (c : Dev nD) (t : Fin cfg0.N) (h0 : ¬t.val % 20 = 0) (h1 : t.val % 20 = 19) (xs0 xs1 : Vec F S1x128 .f32) :
    (ptC V c t h0 h1 xs0 xs1).2.2.1 = k0_pay1 xs1 (sq0 V c t) := by
  unfold ptC
  dsimp only
  rw [View.read_writes_eq_canon _ _ _ (coverC_7 V c t h0 h1 xs0 xs1)]
  unfold runC kernelRun0_C
  dsimp only
  sl_unfold_words
  rw [View.canon_unit_zero hz2]
  simp only [View.readAt_eq_ld, Memref.IsWhole.read_unread, View.ld_unit_zero (S := S1x1) hz2, View.ld_unit_zero (S := S5000x128) hz2,
    View.ld_unit_zero (S := S128x128) hz2, View.ld_unit_zero (S := S1x128) hz2, View.readCov_unit_zero (S := S1x128) _ hz2, read_scratch0, read_scratch1]

end Cert.KernelIdeal.Frame

end
-- ==== Proof.KernelIdealValue.Rows.lean ====
/-
  The first kernel region's row output as one function of the arrays the region finds. At each of the twenty grid
  points the body stores the first linear layer of the point's block of 5000 rows; the blocks of the two row inputs
  and of the row output sit at rows 5000·t … 5000·t + 4999, and the self-loop weight, the first weights and the
  first bias are read whole at every point. So after the region the row output holds, at (r, j), the first linear
  layer of row r at feature j: the twenty blocks tile the array, and the point that covers row r is r / 5000.
-/
import proofs.«121117_j83167746719884_1_alg».proof.Proof.KernelIdealFrame.Pieces0
import proofs.«121117_j83167746719884_1_alg».proof.Proof.KernelIdealValue.Pay
import Idealize.ShloMosaic.Lib.Pipeline.Value
import Idealize.ShloMosaic.Lib.ValueIdx

open scoped BigOperators

noncomputable section

namespace Cert.KernelIdeal.Value

open Cert.KernelIdeal Cert.KernelIdeal.Gen Cert.KernelIdeal.Frame Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- the first linear layer over the combined rows, as the kernel's operands give it -/
def linK (x nbr : S100000x128.Idx → EReal) (eps2 : S1x1.Idx → EReal) (w1t : S128x128.Idx → EReal) (b1r : S1x128.Idx → EReal) (r : Fin 100000) (j : Fin 128) : EReal :=
  (∑ k : Fin 128, ((Cert.Spec.one + eps2 (ix2 0 0)) * x (ix2 r k) + nbr (ix2 r k)) * w1t (ix2 k j)) + b1r (ix2 0 j)

namespace Rows

/-- The block index of each window of the first pipeline at grid point t, decided over the twenty points: the two
    row inputs and the row output move with the point along the rows; the three small inputs stay in place. -/
theorem blockIdx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row 5000·t + p of the whole array, for a point t and a row p of its block. -/
abbrev rowOf (t : Fin cfg0.N) (p : Fin 5000) : Fin 100000 :=
  ⟨5000 * t.val + p.val, by have := t.isLt; have : cfg0.N = 20 := N_0; omega⟩

/-- The node rows' block at point t, at (p, k): the array at row 5000·t + p. -/
theorem nodeRows_read (c : Dev nD) (t : Fin cfg0.N) (p : Fin 5000) (k : Fin 128) :
    iblk0 V c 0 t (ix2 p k : S5000x128.Idx) = V c main_arg0 (ix2 (rowOf t p) k) := by
  obtain ⟨e0, e1, -⟩ := blockIdx t
  unfold iblk0
  rw [View.read_apply]
  show V c main_arg0 (((cfg0.win 0).blk t).view.emb (ix2 p k)) = V c main_arg0 _
  refine congrArg (V c main_arg0) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The neighbour sums' block at point t, at (p, k): the array at row 5000·t + p. -/
theorem nbrRows_read (c : Dev nD) (t : Fin cfg0.N) (p : Fin 5000) (k : Fin 128) :
    iblk0 V c 1 t (ix2 p k : S5000x128.Idx) = V c main_v13 (ix2 (rowOf t p) k) := by
  obtain ⟨-, -, e0, e1, -⟩ := blockIdx t
  unfold iblk0
  rw [View.read_apply]
  show V c main_v13 (((cfg0.win 1).blk t).view.emb (ix2 p k)) = V c main_v13 _
  refine congrArg (V c main_v13) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 128 + 1 * k.val = k.val; rw [e1]; omega

/-- The self-loop weight's block is the whole one-entry array at every point. -/
theorem selfWeight_read (c : Dev nD) (t : Fin cfg0.N) :
    iblk0 V c 2 t (ix2 0 0 : S1x1.Idx) = V c main_v20 (ix2 0 0) := by
  obtain ⟨-, -, -, -, e0, e1, -⟩ := blockIdx t
  unfold iblk0
  rw [View.read_apply]
  show V c main_v20 (((cfg0.win 2).blk t).view.emb (ix2 0 0)) = V c main_v20 _
  refine congrArg (V c main_v20) (funext fun a => Fin.ext ?_)
  match a with
  | ⟨0, _⟩ => show win0_2.index t (0 : Fin 2) * 1 + 1 * 0 = 0; rw [e0]
  | ⟨1, _⟩ => show win0_2.index t (1 : Fin 2) * 1 + 1 * 0 = 0; rw [e1]

/-- The first weights' block is the whole matrix at every point. -/
theorem weight_read (c : Dev nD) (t : Fin cfg0.N) (k q : Fin 128) :
    iblk0 V c 3 t (ix2 k q : S128x128.Idx) = V c main_v14 (ix2 k q) := by
  obtain ⟨-, -, -, -, -, -, e0, e1, -⟩ := blockIdx t
  unfold iblk0
  rw [View.read_apply]
  show V c main_v14 (((cfg0.win 3).blk t).view.emb (ix2 k q)) = V c main_v14 _
  refine congrArg (V c main_v14) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The first bias's block is the whole row at every point. -/
theorem bias_read (c : Dev nD) (t : Fin cfg0.N) (q : Fin 128) :
    iblk0 V c 4 t (ix2 0 q : S1x128.Idx) = V c main_v16 (ix2 0 q) := by
  obtain ⟨-, -, -, -, -, -, -, -, e0, e1, -⟩ := blockIdx t
  unfold iblk0
  rw [View.read_apply]
  show V c main_v16 (((cfg0.win 4).blk t).view.emb (ix2 0 q)) = V c main_v16 _
  refine congrArg (V c main_v16) (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

end Rows

/-- the rows of point t are rows 5000·t … of that function -/
theorem rows0_apply (c : Dev nD) (t : Fin cfg0.N) (p : Fin 5000) (q : Fin 128) :
    rows0 V c t (ix2 p q) = linK (V c main_arg0) (V c main_v13) (V c main_v20) (V c main_v14) (V c main_v16) ⟨5000 * t.val + p.val, by have := t.isLt; have : cfg0.N = 20 := N_0; omega⟩ q := by
  refine (pay4_apply (iblk0 V c 2 t) (iblk0 V c 0 t) (iblk0 V c 1 t) (iblk0 V c 3 t) (iblk0 V c 4 t) p q).trans ?_
  simp only [Rows.nodeRows_read, Rows.nbrRows_read, Rows.selfWeight_read, Rows.weight_read, Rows.bias_read]
  rfl

namespace Rows

/-- The same at an index of the block not yet split into its coordinates. -/
theorem rows0_apply_idx (c : Dev nD) (t : Fin cfg0.N) (y : S5000x128.Idx) :
    rows0 V c t y = linK (V c main_arg0) (V c main_v13) (V c main_v20) (V c main_v14) (V c main_v16) (rowOf t (y 0)) (y 1) :=
  (congrArg (rows0 V c t) (eq_ix2 y)).trans (rows0_apply V c t (y 0) (y 1))

/-- What any point leaves in the row output's buffer is the first linear layer of the point's blocks, whichever of
    the three cases of the body the point falls under. -/
theorem rows_at (c : Dev nD) (t : Fin cfg0.N) : (outsAt0 V c t.val t.isLt).1 = rows0 V c t := by
  by_cases h1 : t.val % 20 = 19
  · have h0 : ¬t.val % 20 = 0 := by omega
    rw [outsAt0_C V c t h0 h1, ptC_rows]
  · by_cases h0 : t.val % 20 = 0
    · rw [outsAt0_A V c t h0 h1, ptA_rows]
    · rw [outsAt0_B V c t h0 h1, ptB_rows]

/-- The whole array of first-layer rows, as one function of the arrays the region finds. -/
abbrev rowsArr (c : Dev nD) : S100000x128.Idx → EReal := fun i =>
  linK (V c main_arg0) (V c main_v13) (V c main_v20) (V c main_v14) (V c main_v16) (i 0) (i 1)

/-- What point t writes back to the row output is block t of that array. -/
theorem flushed_eq (c : Dev nD) (t : Fin cfg0.N) :
    (dat0 V c).flushed 5 t = ((cfg0.win 5).blk t).view.read (Elt Ideal) (rowsArr V c) := by
  show (cfg0.win 5).cut (grid0.coords t) ((dat0 V c).after 5 t) = _
  rw [after0_5, rows_at]
  obtain ⟨-, -, -, -, -, -, -, -, -, -, e0, e1⟩ := blockIdx t
  funext y
  rw [View.read_apply]
  show rows0 V c t y = rowsArr V c (((cfg0.win 5).blk t).view.emb y)
  have he : ((cfg0.win 5).blk t).view.emb y = ix2 (rowOf t (y 0)) (y 1) := funext fun a => Fin.ext (by
    match a with
    | ⟨0, _⟩ => show win0_5.index t (0 : Fin 2) * 5000 + 1 * (y 0).val = 5000 * t.val + (y 0).val; rw [e0]; omega
    | ⟨1, _⟩ => show win0_5.index t (1 : Fin 2) * 128 + 1 * (y 1).val = (y 1).val; rw [e1]; omega)
  exact (rows0_apply_idx V c t y).trans (congrArg (rowsArr V c) he).symm

/-- An index of the row output is in point t's block iff each coordinate is in the block's range on its axis. -/
theorem mem_rowBlock (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v21_0).slice (win0_5.rect t)).set ↔ _
  rw [View.set_slice_whole, Rect.mem_set_unit]
  exact Iff.rfl

/-- Every row of the output is in the block of the point its row number divided by 5000 names. -/
theorem rows_cover (i : S100000x128.Idx) :
    ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  refine ⟨⟨(i 0).val / 5000, by omega⟩, flush0_5 _, ?_⟩
  obtain ⟨-, -, -, -, -, -, -, -, -, -, e0, e1⟩ := blockIdx ⟨(i 0).val / 5000, by omega⟩
  rw [mem_rowBlock]
  intro a
  match a with
  | ⟨0, _⟩ =>
    show win0_5.index _ (0 : Fin 2) * 5000 ≤ (i 0).val ∧ (i 0).val < win0_5.index _ (0 : Fin 2) * 5000 + 5000
    rw [e0]; dsimp only; omega
  | ⟨1, _⟩ =>
    show win0_5.index _ (1 : Fin 2) * 128 ≤ (i 1).val ∧ (i 1).val < win0_5.index _ (1 : Fin 2) * 128 + 128
    rw [e1]; omega

end Rows

/-- After the region the row output holds the first linear layer of every row. -/
theorem final0_rows (c : Dev nD) (r : Fin 100000) (j : Fin 128) :
    (dat0 (F := Ideal) V c).arrAt 5 cfg0.N (ix2 r j) = linK (V c main_arg0) (V c main_v13) (V c main_v20) (V c main_v14) (V c main_v16) r j := by
  rw [(dat0 V c).arrAt_eq_of_cover 5 (Rows.rowsArr V c) (fun t _ => Rows.flushed_eq V c t) Rows.rows_cover]

end Cert.KernelIdeal.Value

end
-- ==== Proof.KernelIdealValue.Sums.lean ====
/-
  The first kernel region's two sum outputs as functions of the arrays the region finds. The body keeps two running
  sums, one of the column sums of the first linear layer's rows and one of the column sums of their squares: both
  start from zero at the first of the twenty grid points, every point adds the column sums of its own block of
  5000 rows, and the last point copies the two updated sums into the sum outputs, which the pipeline writes back
  there and nowhere else. By induction on the point the running sum after point n is the sum over blocks 0 to n;
  row r is row r mod 5000 of block r / 5000, so the twenty block sums are the sum over all hundred thousand rows
  (addition of extended reals is commutative and associative); and the one block written back, at block index
  (0, 0), is the whole one-row array.
-/
import proofs.«121117_j83167746719884_1_alg».proof.Proof.KernelIdealFrame.Pieces0
import proofs.«121117_j83167746719884_1_alg».proof.Proof.KernelIdealValue.Pay
import proofs.«121117_j83167746719884_1_alg».proof.Proof.KernelIdealValue.Rows
import Idealize.ShloMosaic.Lib.Pipeline.Value
import Idealize.ShloMosaic.Lib.ValueIdx
import Mathlib.Algebra.BigOperators.Fin

open scoped BigOperators

noncomputable section

namespace Cert.KernelIdeal.Value

open Cert.KernelIdeal Cert.KernelIdeal.Gen Cert.KernelIdeal.Frame Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

namespace Sums

/-! ## Twenty blocks of five thousand rows -/

/-- The sum of a row-indexed quantity over block s of five thousand consecutive rows (nothing past the twentieth
    block). -/
def blockSum (f : Fin 100000 → EReal) (s : ℕ) : EReal :=
  if h : s < 20 then ∑ p : Fin 5000, f ⟨5000 * s + p.val, by have := p.isLt; omega⟩ else 0

/-- Row r is row r mod 5000 of block r / 5000, so the twenty block sums add up to the sum over all rows: the rows
    are re-indexed by the pair (block, row within the block), and addition of extended reals is commutative and
    associative. -/
theorem sum_blockSum (f : Fin 100000 → EReal) : ∑ s ∈ Finset.range 20, blockSum f s = ∑ r : Fin 100000, f r := by
  rw [← Fin.sum_univ_eq_sum_range (fun s => blockSum f s) 20,
    ← Equiv.sum_comp (finProdFinEquiv : Fin 20 × Fin 5000 ≃ Fin 100000) f, Fintype.sum_prod_type]
  refine Finset.sum_congr rfl fun t _ => ?_
  unfold blockSum
  rw [dif_pos t.isLt]
  refine Finset.sum_congr rfl fun p _ => congrArg f (Fin.ext ?_)
  show 5000 * t.val + p.val = (finProdFinEquiv (t, p)).val
  rw [finProdFinEquiv_apply_val]
  show 5000 * t.val + p.val = p.val + 5000 * t.val
  omega

/-! ## The rows of a block -/

/-- The first linear layer at row r, column j, over the region-entry contents. -/
abbrev lin0 (c : Dev nD) (r : Fin 100000) (j : Fin 128) : EReal :=
  linK (V c main_arg0) (V c main_v13) (V c main_v20) (V c main_v14) (V c main_v16) r j

/-- The column sum of the rows a point stores is the block sum of the layer over that point's block. -/
theorem rowsSum_eq (c : Dev nD) (t : Fin cfg0.N) (q : Fin 128) :
    ∑ p : Fin 5000, k0_pay4 (F := Ideal) (iblk0 V c 2 t) (iblk0 V c 0 t) (iblk0 V c 1 t) (iblk0 V c 3 t) (iblk0 V c 4 t) (ix2 p q)
      = blockSum (fun r => lin0 V c r q) t.val := by
  have ht : t.val < 20 := lt_of_lt_of_eq t.isLt N0_eq
  unfold blockSum
  rw [dif_pos ht]
  exact Finset.sum_congr rfl fun p _ => rows0_apply V c t p q

/-- The column sum of the squares a point forms is the block sum of the layer's squares. -/
theorem sqSum_eq (c : Dev nD) (t : Fin cfg0.N) (q : Fin 128) :
    ∑ p : Fin 5000, sq0 V c t (ix2 p q) = blockSum (fun r => lin0 V c r q * lin0 V c r q) t.val := by
  have ht : t.val < 20 := lt_of_lt_of_eq t.isLt N0_eq
  unfold blockSum
  rw [dif_pos ht]
  refine Finset.sum_congr rfl fun p _ => (pay6_apply _ _ _ _ _ p q).trans ?_
  exact congrArg₂ (· * ·) (rows0_apply V c t p q) (rows0_apply V c t p q)

/-! ## The running sums -/

/-- After point n the first running sum holds, at column q, the block sums of the layer over blocks 0 to n: it
    starts from zero at the first point and every later point adds its block's column sum to what the point before
    left. -/
theorem runSum_eq (c : Dev nD) : ∀ (n : ℕ) (hn : n < cfg0.N) (q : Fin 128),
    (outsAt0 V c n hn).2.2.2.1 (ix2 0 q) = ∑ s ∈ Finset.range (n + 1), blockSum (fun r => lin0 V c r q) s
  | 0, hn, q => by
    have h0 : (⟨0, hn⟩ : Fin cfg0.N).val % 20 = 0 := Nat.zero_mod _
    have h1 : ¬(⟨0, hn⟩ : Fin cfg0.N).val % 20 = 19 := by show ¬(0 : ℕ) % 20 = 19; decide
    have e : outsAt0 V c 0 hn = ptA V c ⟨0, hn⟩ h0 h1 := outsAt0_A V c ⟨0, hn⟩ h0 h1
    rw [e, ptA_sum, pay5_apply, pay2_apply, zero_add, rowsSum_eq, Finset.sum_range_succ, Finset.range_zero,
      Finset.sum_empty, zero_add]
  | n + 1, hn, q => by
    have hN : n + 1 < 20 := lt_of_lt_of_eq hn N0_eq
    have h0 : ¬(⟨n + 1, hn⟩ : Fin cfg0.N).val % 20 = 0 := by show ¬(n + 1) % 20 = 0; omega
    have ih := runSum_eq c n (Nat.lt_of_succ_lt hn) q
    by_cases h1 : (⟨n + 1, hn⟩ : Fin cfg0.N).val % 20 = 19
    · have e : outsAt0 V c (n + 1) hn = ptC V c ⟨n + 1, hn⟩ h0 h1 (outsAt0 V c n (Nat.lt_of_succ_lt hn)).2.2.2.1
          (outsAt0 V c n (Nat.lt_of_succ_lt hn)).2.2.2.2 := outsAt0_C V c ⟨n + 1, hn⟩ h0 h1
      rw [e, ptC_sum, pay5_apply, ih, rowsSum_eq, Finset.sum_range_succ _ (n + 1)]
    · have e : outsAt0 V c (n + 1) hn = ptB V c ⟨n + 1, hn⟩ h0 h1 (outsAt0 V c n (Nat.lt_of_succ_lt hn)).2.2.2.1
          (outsAt0 V c n (Nat.lt_of_succ_lt hn)).2.2.2.2 := outsAt0_B V c ⟨n + 1, hn⟩ h0 h1
      rw [e, ptB_sum, pay5_apply, ih, rowsSum_eq, Finset.sum_range_succ _ (n + 1)]

/-- After point n the second running sum holds the block sums of the layer's squares over blocks 0 to n. -/
theorem runSumSq_eq (c : Dev nD) : ∀ (n : ℕ) (hn : n < cfg0.N) (q : Fin 128),
    (outsAt0 V c n hn).2.2.2.2 (ix2 0 q) = ∑ s ∈ Finset.range (n + 1), blockSum (fun r => lin0 V c r q * lin0 V c r q) s
  | 0, hn, q => by
    have h0 : (⟨0, hn⟩ : Fin cfg0.N).val % 20 = 0 := Nat.zero_mod _
    have h1 : ¬(⟨0, hn⟩ : Fin cfg0.N).val % 20 = 19 := by show ¬(0 : ℕ) % 20 = 19; decide
    have e : outsAt0 V c 0 hn = ptA V c ⟨0, hn⟩ h0 h1 := outsAt0_A V c ⟨0, hn⟩ h0 h1
    rw [e, ptA_sumsq, pay1_apply, pay3_apply, zero_add, sqSum_eq, Finset.sum_range_succ, Finset.range_zero,
      Finset.sum_empty, zero_add]
  | n + 1, hn, q => by
    have hN : n + 1 < 20 := lt_of_lt_of_eq hn N0_eq
    have h0 : ¬(⟨n + 1, hn⟩ : Fin cfg0.N).val % 20 = 0 := by show ¬(n + 1) % 20 = 0; omega
    have ih := runSumSq_eq c n (Nat.lt_of_succ_lt hn) q
    by_cases h1 : (⟨n + 1, hn⟩ : Fin cfg0.N).val % 20 = 19
    · have e : outsAt0 V c (n + 1) hn = ptC V c ⟨n + 1, hn⟩ h0 h1 (outsAt0 V c n (Nat.lt_of_succ_lt hn)).2.2.2.1
          (outsAt0 V c n (Nat.lt_of_succ_lt hn)).2.2.2.2 := outsAt0_C V c ⟨n + 1, hn⟩ h0 h1
      rw [e, ptC_sumsq, pay1_apply, ih, sqSum_eq, Finset.sum_range_succ _ (n + 1)]
    · have e : outsAt0 V c (n + 1) hn = ptB V c ⟨n + 1, hn⟩ h0 h1 (outsAt0 V c n (Nat.lt_of_succ_lt hn)).2.2.2.1
          (outsAt0 V c n (Nat.lt_of_succ_lt hn)).2.2.2.2 := outsAt0_B V c ⟨n + 1, hn⟩ h0 h1
      rw [e, ptB_sumsq, pay1_apply, ih, sqSum_eq, Finset.sum_range_succ _ (n + 1)]

/-! ## The last point copies the running sums out -/

/-- Nineteen is below the number of points. -/
theorem lt19 : 19 < cfg0.N := by rw [N0_eq]; decide
/-- The last of the twenty points. -/
abbrev lastPt : Fin cfg0.N := ⟨19, lt19⟩

theorem lastPt_ne_first : ¬lastPt.val % 20 = 0 := by show ¬(19 : ℕ) % 20 = 0; decide
theorem lastPt_last : lastPt.val % 20 = 19 := by show (19 : ℕ) % 20 = 19; decide

/-- What the last point leaves, in terms of what the point before left. -/
theorem outsAt0_last (c : Dev nD) :
    outsAt0 V c 19 lt19 = ptC V c lastPt lastPt_ne_first lastPt_last
      (outsAt0 V c 18 (Nat.lt_of_succ_lt lt19)).2.2.2.1 (outsAt0 V c 18 (Nat.lt_of_succ_lt lt19)).2.2.2.2 :=
  outsAt0_C V c lastPt lastPt_ne_first lastPt_last

/-- The sum output at the last point is the updated first running sum. -/
theorem out6_eq_run (c : Dev nD) : (outsAt0 V c 19 lt19).2.1 = (outsAt0 V c 19 lt19).2.2.2.1 := by
  rw [outsAt0_last, ptC_out6, ptC_sum]

/-- The sum-of-squares output at the last point is the updated second running sum. -/
theorem out7_eq_run (c : Dev nD) : (outsAt0 V c 19 lt19).2.2.1 = (outsAt0 V c 19 lt19).2.2.2.2 := by
  rw [outsAt0_last, ptC_out7, ptC_sumsq]

/-! ## From the one written-back block to the array -/

/-- What the sum output ends holding: what the last point left in its buffer, as contents of the array. -/
abbrev sumOut (c : Dev nD) : Buf (Elt Ideal) ((c : Thread nD τ).loc main_v21_1) := (outsAt0 V c 19 lt19).2.1
abbrev sumSqOut (c : Dev nD) : Buf (Elt Ideal) ((c : Thread nD τ).loc main_v21_2) := (outsAt0 V c 19 lt19).2.2.1

/-- Only the last point writes the sum output back. -/
theorem flush6_last (t : Fin cfg0.N) (hf : (cfg0.win 6).flush t = true) : t = lastPt :=
  Fin.ext (by have := (flush0_6 t).mp hf; have := lt_of_lt_of_eq t.isLt N0_eq; show t.val = 19; omega)
theorem flush7_last (t : Fin cfg0.N) (hf : (cfg0.win 7).flush t = true) : t = lastPt :=
  Fin.ext (by have := (flush0_7 t).mp hf; have := lt_of_lt_of_eq t.isLt N0_eq; show t.val = 19; omega)

/-- The block written back there is the block at index (0, 0), the whole one-row array: reading the array through
    it is reading the array. -/
theorem flushed6_eq (c : Dev nD) (t : Fin cfg0.N) (hf : (cfg0.win 6).flush t = true) :
    (dat0 V c).flushed 6 t = ((cfg0.win 6).blk t).view.read (Elt Ideal) (sumOut V c) := by
  obtain rfl := flush6_last t hf
  show (cfg0.win 6).cut (grid0.coords lastPt) ((dat0 V c).after 6 lastPt) = _
  rw [after0_6]
  have hz : (fun a => win0_6.index lastPt a * main_v21_1.ty.shape.size a) = fun _ => 0 :=
    funext fun a => by fin_cases a <;> decide +kernel
  exact (Memref.read_access_unit_zero (Elt Ideal) main_v21_1 hz (fun a => by rw [congrFun hz a]; simp) (sumOut V c)).symm

theorem flushed7_eq (c : Dev nD) (t : Fin cfg0.N) (hf : (cfg0.win 7).flush t = true) :
    (dat0 V c).flushed 7 t = ((cfg0.win 7).blk t).view.read (Elt Ideal) (sumSqOut V c) := by
  obtain rfl := flush7_last t hf
  show (cfg0.win 7).cut (grid0.coords lastPt) ((dat0 V c).after 7 lastPt) = _
  rw [after0_7]
  have hz : (fun a => win0_7.index lastPt a * main_v21_2.ty.shape.size a) = fun _ => 0 :=
    funext fun a => by fin_cases a <;> decide +kernel
  exact (Memref.read_access_unit_zero (Elt Ideal) main_v21_2 hz (fun a => by rw [congrFun hz a]; simp) (sumSqOut V c)).symm

/-- Every index of the one-row array lies in that block. -/
theorem cover6 (i : S1x128.Idx) : i ∈ ((cfg0.win 6).blk lastPt).view.set := by
  show i ∈ ((View.whole main_v21_1).slice (win0_6.rect lastPt)).set
  rw [View.set_slice_whole, Rect.mem_set_unit]
  intro a
  have hi : (i a : ℕ) < S1x128.size a := (i a).isLt
  have hlo : win0_6.index lastPt a * win0_6.size a = 0 := by fin_cases a <;> decide +kernel
  have hsz : win0_6.xsize (grid0.coords lastPt) a = S1x128.size a := by fin_cases a <;> decide +kernel
  show win0_6.index lastPt a * win0_6.size a ≤ (i a : ℕ) ∧ (i a : ℕ) < win0_6.index lastPt a * win0_6.size a + win0_6.xsize (grid0.coords lastPt) a
  rw [hlo, hsz]
  omega

theorem cover7 (i : S1x128.Idx) : i ∈ ((cfg0.win 7).blk lastPt).view.set := by
  show i ∈ ((View.whole main_v21_2).slice (win0_7.rect lastPt)).set
  rw [View.set_slice_whole, Rect.mem_set_unit]
  intro a
  have hi : (i a : ℕ) < S1x128.size a := (i a).isLt
  have hlo : win0_7.index lastPt a * win0_7.size a = 0 := by fin_cases a <;> decide +kernel
  have hsz : win0_7.xsize (grid0.coords lastPt) a = S1x128.size a := by fin_cases a <;> decide +kernel
  show win0_7.index lastPt a * win0_7.size a ≤ (i a : ℕ) ∧ (i a : ℕ) < win0_7.index lastPt a * win0_7.size a + win0_7.xsize (grid0.coords lastPt) a
  rw [hlo, hsz]
  omega

/-- So the sum output's array ends holding what the last point left in its buffer. -/
theorem arr6_eq (c : Dev nD) : (dat0 V c).arrAt 6 cfg0.N = sumOut V c :=
  (dat0 V c).arrAt_eq_of_cover 6 (sumOut V c) (flushed6_eq V c) fun i => ⟨lastPt, (flush0_6 lastPt).mpr lastPt_last, cover6 i⟩

theorem arr7_eq (c : Dev nD) : (dat0 V c).arrAt 7 cfg0.N = sumSqOut V c :=
  (dat0 V c).arrAt_eq_of_cover 7 (sumSqOut V c) (flushed7_eq V c) fun i => ⟨lastPt, (flush0_7 lastPt).mpr lastPt_last, cover7 i⟩

end Sums

open Sums

/-! ## The two sum outputs -/

/-- The sum output at column j is the sum of the first linear layer's column j over all hundred thousand rows. -/
theorem final0_sum (c : Dev nD) (j : Fin 128) :
    (dat0 (F := Ideal) V c).arrAt 6 cfg0.N (ix2 0 j)
      = ∑ r : Fin 100000, linK (V c main_arg0) (V c main_v13) (V c main_v20) (V c main_v14) (V c main_v16) r j := by
  rw [arr6_eq]
  show (outsAt0 V c 19 lt19).2.1 (ix2 0 j) = _
  rw [out6_eq_run, runSum_eq, sum_blockSum]

/-- The sum-of-squares output at column j is the sum of the squares of the layer's column j over all rows. -/
theorem final0_sumsq (c : Dev nD) (j : Fin 128) :
    (dat0 (F := Ideal) V c).arrAt 7 cfg0.N (ix2 0 j)
      = ∑ r : Fin 100000, linK (V c main_arg0) (V c main_v13) (V c main_v20) (V c main_v14) (V c main_v16) r j
          * linK (V c main_arg0) (V c main_v13) (V c main_v20) (V c main_v14) (V c main_v16) r j := by
  rw [arr7_eq]
  show (outsAt0 V c 19 lt19).2.2.1 (ix2 0 j) = _
  rw [out7_eq_run, runSumSq_eq, sum_blockSum]

end Cert.KernelIdeal.Value

end
-- ==== Proof.KernelIdealValue.Result.lean ====
/-
  The kernel's result as the layer's function of the arguments.

  The run passes four boundaries. The host operations before the first region leave the aggregated neighbour
  rows, the two weight matrices transposed, and the biases, scale, shift and self-loop weight as one-row arrays.
  The first region leaves the first linear layer's rows and, per column, their sum and the sum of their squares.
  The host operations between the regions divide the two sums by the number of rows and subtract the square of
  the first quotient from the second: the column's mean and its variance read from the first two moments.
  The second region normalises, scales, shifts, clips at zero and applies the second linear layer.
  Read index by index, a one-row array at (0, k) is the argument at k, a transposed matrix at (k, j) is the
  argument at (j, k), and the composition is the layer with the variance taken from the moments.
-/
import proofs.«121117_j83167746719884_1_alg».proof.Proof.KernelIdealFrame.Run
import proofs.«121117_j83167746719884_1_alg».proof.Proof.KernelIdealValue.Norm
import proofs.«121117_j83167746719884_1_alg».proof.Proof.KernelIdealValue.Rows
import proofs.«121117_j83167746719884_1_alg».proof.Proof.KernelIdealValue.Sums
import proofs.«121117_j83167746719884_1_alg».proof.Proof.Spec
import Idealize.ShloMosaic.Lib.Pipeline.Value
import Idealize.ShloMosaic.Lib.StableHlo.Run
import Idealize.ShloMosaic.Lib.ValueIdx

set_option maxRecDepth 16384

open scoped BigOperators

noncomputable section

namespace Cert.KernelIdeal.Value

open Cert.KernelIdeal Cert.KernelIdeal.Gen Cert.KernelIdeal.Frame Idealize.ShloMosaic Idealize.ShloMosaic.TcCoe Idealize.ShloMosaic.ValueIdx

variable (m : (ℓ : Loc nD τ sig) → Buf (Elt Ideal) ℓ) (ρ : Dev nD → PrngReg)

/-- the aggregated neighbour rows, as @main's first host stretch computes them: an opaque function of x and the edge list -/
def nbrOf (x : (⟨S100000x128, .f32⟩ : BufTy).Contents (Elt Ideal)) (e : (⟨S2x1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![0, 0] e slices_S2x1600000_S1x1600000_0_0) shapeCasts_S1x1600000_S1600000))
    (Host.gather gather_S100000x128_S1600000x1_S1600000x128_1_0_n_n_0_1_1128 x
      (broadcastInDim S1600000x1 ![0] bcast_S1600000_S1600000x1_0
        (select
          (cmpi .slt
            (shapeCast S1600000 (extractStridedSlice S1x1600000 ![1, 0] e slices_S2x1600000_S1x1600000_1_0) shapeCasts_S1x1600000_S1600000)
            (broadcastInDim S1600000 ![] bcast_S_S1600000 (constantI S_ 32 0#32)))
          (addi
            (shapeCast S1600000 (extractStridedSlice S1x1600000 ![1, 0] e slices_S2x1600000_S1x1600000_1_0) shapeCasts_S1x1600000_S1600000)
            (broadcastInDim S1600000 ![] bcast_S_S1600000 (constantI S_ 32 100000#32)))
          (shapeCast S1600000 (extractStridedSlice S1x1600000 ![1, 0] e slices_S2x1600000_S1x1600000_1_0) shapeCasts_S1x1600000_S1600000))))

namespace Result

/-! ## The first host stretch: what the first region finds -/

/-- The node features reach the first region as launched. -/
theorem feat_entry (c : Dev nD) : V1 (F := Ideal) m ρ c main_arg0 = m ((c.tc : Thread nD τ).loc main_arg0) := by
  show StableHlo.after hostOps0 (W0 m ρ c) (Proc.devRef .tc main_arg0) = _
  after_results <;> rfl

/-- The neighbour rows the first region finds are the scatter-add of the gathered rows. -/
theorem nbr_entry (c : Dev nD) :
    V1 (F := Ideal) m ρ c main_v13 = nbrOf (m ((c.tc : Thread nD τ).loc main_arg0)) (m ((c.tc : Thread nD τ).loc main_arg1)) := by
  show StableHlo.after hostOps0 (W0 m ρ c) (Proc.devRef .tc main_v13) = _
  after_results <;> rfl

/-- The one-row form of a vector of 128 entries, at (0, j), is the vector at j. -/
theorem row_of_vec (v : S128.Idx → EReal) (j : Fin 128) : shapeCast S1x128 v shapeCasts_S128_S1x128 (ix2 0 j) = v (ix1 j) :=
  shapeCast_apply v shapeCasts_S128_S1x128 (ix2 0 j) (ix1 j) (by
    rw [Shape.rowMajor_val_one, Shape.rowMajor_val_two]; show j.val = 0 * 128 + j.val; omega)

/-- The [1,1] form of a one-entry vector, at (0, 0), is the vector at 0. -/
theorem cell_of_vec (v : S1.Idx → EReal) : shapeCast S1x1 v shapeCasts_S1_S1x1 (ix2 0 0) = v (ix1 0) :=
  shapeCast_apply v shapeCasts_S1_S1x1 (ix2 0 0) (ix1 0) (by
    rw [Shape.rowMajor_val_one, Shape.rowMajor_val_two]; rfl)

/-- A transposed square matrix at (k, j) is the matrix at (j, k). -/
theorem transposed_at (w : S128x128.Idx → EReal) (k j : Fin 128) :
    transpose S128x128 [1, 0] w transposes_S128x128_S128x128_1_0 (ix2 k j) = w (ix2 j k) :=
  transpose_apply [1, 0] w transposes_S128x128_S128x128_1_0 (ix2 k j) (ix2 j k) (fun b => by
    match b with
    | ⟨0, _⟩ => rfl
    | ⟨1, _⟩ => rfl)

/-- The self-loop weight the first region finds, at (0, 0). -/
theorem eps_entry (c : Dev nD) :
    (V1 (F := Ideal) m ρ c main_v20 : S1x1.Idx → EReal) (ix2 0 0) = (m ((c.tc : Thread nD τ).loc main_arg2) : S1.Idx → EReal) (ix1 0) := by
  have e : (V1 (F := Ideal) m ρ c main_v20 : S1x1.Idx → EReal) = shapeCast S1x1 (m ((c.tc : Thread nD τ).loc main_arg2) : S1.Idx → EReal) shapeCasts_S1_S1x1 := by
    show StableHlo.after hostOps0 (W0 m ρ c) (Proc.devRef .tc main_v20) = _
    after_results <;> rfl
  rw [e]; exact cell_of_vec _

/-- The first weight matrix the first region finds, at (k, j), is the argument at (j, k). -/
theorem w1_entry (c : Dev nD) (k j : Fin 128) :
    (V1 (F := Ideal) m ρ c main_v14 : S128x128.Idx → EReal) (ix2 k j) = (m ((c.tc : Thread nD τ).loc main_arg3) : S128x128.Idx → EReal) (ix2 j k) := by
  have e : (V1 (F := Ideal) m ρ c main_v14 : S128x128.Idx → EReal) = transpose S128x128 [1, 0] (m ((c.tc : Thread nD τ).loc main_arg3) : S128x128.Idx → EReal) transposes_S128x128_S128x128_1_0 := by
    show StableHlo.after hostOps0 (W0 m ρ c) (Proc.devRef .tc main_v14) = _
    after_results <;> rfl
  rw [e]; exact transposed_at _ k j

/-- The first bias the first region finds, at (0, j). -/
theorem b1_entry (c : Dev nD) (j : Fin 128) :
    (V1 (F := Ideal) m ρ c main_v16 : S1x128.Idx → EReal) (ix2 0 j) = (m ((c.tc : Thread nD τ).loc main_arg4) : S128.Idx → EReal) (ix1 j) := by
  have e : (V1 (F := Ideal) m ρ c main_v16 : S1x128.Idx → EReal) = shapeCast S1x128 (m ((c.tc : Thread nD τ).loc main_arg4) : S128.Idx → EReal) shapeCasts_S128_S1x128 := by
    show StableHlo.after hostOps0 (W0 m ρ c) (Proc.devRef .tc main_v16) = _
    after_results <;> rfl
  rw [e]; exact row_of_vec _ j

/-! ## The first region's rows are the first linear layer -/

/-- The kernel's first linear layer is the layer's, once its one-row and transposed operands are read back. -/
theorem linK_eq_lin1 (x nbr : S100000x128.Idx → EReal) (eps2 : S1x1.Idx → EReal) (eps : S1.Idx → EReal)
    (w1t W1 : S128x128.Idx → EReal) (b1r : S1x128.Idx → EReal) (b1 : S128.Idx → EReal)
    (heps : eps2 (ix2 0 0) = eps (ix1 0)) (hw : ∀ k j : Fin 128, w1t (ix2 k j) = W1 (ix2 j k)) (hb : ∀ j : Fin 128, b1r (ix2 0 j) = b1 (ix1 j))
    (r : Fin 100000) (j : Fin 128) :
    linK x nbr eps2 w1t b1r r j = Cert.Spec.lin1 x nbr eps W1 b1 r j := by
  unfold linK Cert.Spec.lin1 Cert.Spec.comb
  simp only [heps, hw, hb]

/-- The first layer's rows, as a function of the arguments. -/
abbrev layer1 (c : Dev nD) : Fin 100000 → Fin 128 → EReal :=
  Cert.Spec.lin1 (m ((c.tc : Thread nD τ).loc main_arg0)) (nbrOf (m ((c.tc : Thread nD τ).loc main_arg0)) (m ((c.tc : Thread nD τ).loc main_arg1)))
    (m ((c.tc : Thread nD τ).loc main_arg2)) (m ((c.tc : Thread nD τ).loc main_arg3)) (m ((c.tc : Thread nD τ).loc main_arg4))

/-- The kernel's first layer over what the first region finds is the layer's over the arguments. -/
theorem linK_entry (c : Dev nD) (r : Fin 100000) (j : Fin 128) :
    linK (V1 (F := Ideal) m ρ c main_arg0) (V1 (F := Ideal) m ρ c main_v13) (V1 (F := Ideal) m ρ c main_v20) (V1 (F := Ideal) m ρ c main_v14) (V1 (F := Ideal) m ρ c main_v16) r j
      = layer1 m c r j := by
  rw [feat_entry, nbr_entry]
  exact linK_eq_lin1 _ _ _ _ _ _ _ _ (eps_entry m ρ c) (w1_entry m ρ c) (b1_entry m ρ c) r j

/-! ## The second host stretch: what the second region finds -/

/-- The rows the second region finds are the first region's. -/
theorem rows_at (c : Dev nD) (r : Fin 100000) (k : Fin 128) :
    (V3 (F := Ideal) m ρ c main_v21_0 : S100000x128.Idx → EReal) (ix2 r k) = layer1 m c r k := by
  have e : V3 (F := Ideal) m ρ c main_v21_0 = (dat0 (F := Ideal) (V1 m ρ) c).arrAt 5 cfg0.N := by
    show StableHlo.after hostOps1 (W2 m ρ c) (Proc.devRef .tc main_v21_0) = _
    after_results; exact W2_arr m ρ c 5
  rw [e]
  exact (final0_rows (V1 m ρ) c r k).trans (linK_entry m ρ c r k)

/-- The column sums the first region leaves. -/
theorem sum_at (c : Dev nD) (k : Fin 128) :
    (W2 (F := Ideal) m ρ c (Proc.devRef .tc main_v21_1) : S1x128.Idx → EReal) (ix2 0 k) = ∑ r : Fin 100000, layer1 m c r k := by
  rw [show W2 (F := Ideal) m ρ c (Proc.devRef .tc main_v21_1) = (dat0 (F := Ideal) (V1 m ρ) c).arrAt 6 cfg0.N from W2_arr m ρ c 6]
  have h2 : (∑ r : Fin 100000, linK (V1 (F := Ideal) m ρ c main_arg0) (V1 (F := Ideal) m ρ c main_v13) (V1 (F := Ideal) m ρ c main_v20) (V1 (F := Ideal) m ρ c main_v14) (V1 (F := Ideal) m ρ c main_v16) r k : EReal) = ∑ r : Fin 100000, layer1 m c r k :=
    Finset.sum_congr rfl fun r _ => linK_entry m ρ c r k
  exact (final0_sum (V1 m ρ) c k).trans h2

/-- The column sums of squares the first region leaves. -/
theorem sumsq_at (c : Dev nD) (k : Fin 128) :
    (W2 (F := Ideal) m ρ c (Proc.devRef .tc main_v21_2) : S1x128.Idx → EReal) (ix2 0 k) = ∑ r : Fin 100000, layer1 m c r k * layer1 m c r k := by
  rw [show W2 (F := Ideal) m ρ c (Proc.devRef .tc main_v21_2) = (dat0 (F := Ideal) (V1 m ρ) c).arrAt 7 cfg0.N from W2_arr m ρ c 7]
  have h2 : (∑ r : Fin 100000, linK (V1 (F := Ideal) m ρ c main_arg0) (V1 (F := Ideal) m ρ c main_v13) (V1 (F := Ideal) m ρ c main_v20) (V1 (F := Ideal) m ρ c main_v14) (V1 (F := Ideal) m ρ c main_v16) r k * linK (V1 (F := Ideal) m ρ c main_arg0) (V1 (F := Ideal) m ρ c main_v13) (V1 (F := Ideal) m ρ c main_v20) (V1 (F := Ideal) m ρ c main_v14) (V1 (F := Ideal) m ρ c main_v16) r k : EReal) = ∑ r : Fin 100000, layer1 m c r k * layer1 m c r k :=
    Finset.sum_congr rfl fun r _ => by rw [linK_entry]
  exact (final0_sumsq (V1 m ρ) c k).trans h2

/-- The column means the second region finds: the sums divided by the number of rows. -/
theorem mean_at (c : Dev nD) (k : Fin 128) :
    (V3 (F := Ideal) m ρ c main_v23 : S1x128.Idx → EReal) (ix2 0 k) = Cert.Spec.mean (layer1 m c) k := by
  have e : (V3 (F := Ideal) m ρ c main_v23 : S1x128.Idx → EReal)
      = Host.divf (W2 (F := Ideal) m ρ c (Proc.devRef .tc main_v21_1)) (broadcastInDim S1x128 ![] bcast_S_S1x128 (constant (F := Ideal) S_ .f32 0x47C35000#32)) := by
    show StableHlo.after hostOps1 (W2 m ρ c) (Proc.devRef .tc main_v23) = _
    after_results <;> rfl
  rw [e]
  show Ideal.div ((W2 (F := Ideal) m ρ c (Proc.devRef .tc main_v21_1) : S1x128.Idx → EReal) (ix2 0 k)) Cert.Spec.count = _
  rw [sum_at]
  rfl

/-- The column variances the second region finds: the second moment less the square of the mean. -/
theorem var_at (c : Dev nD) (k : Fin 128) :
    (V3 (F := Ideal) m ρ c main_v27 : S1x128.Idx → EReal) (ix2 0 k) = Cert.Spec.varMoments (layer1 m c) k := by
  have e : (V3 (F := Ideal) m ρ c main_v27 : S1x128.Idx → EReal)
      = subf (Host.divf (W2 (F := Ideal) m ρ c (Proc.devRef .tc main_v21_2)) (broadcastInDim S1x128 ![] bcast_S_S1x128 (constant (F := Ideal) S_ .f32 0x47C35000#32)))
          (mulf (Host.divf (W2 (F := Ideal) m ρ c (Proc.devRef .tc main_v21_1)) (broadcastInDim S1x128 ![] bcast_S_S1x128 (constant (F := Ideal) S_ .f32 0x47C35000#32)))
            (Host.divf (W2 (F := Ideal) m ρ c (Proc.devRef .tc main_v21_1)) (broadcastInDim S1x128 ![] bcast_S_S1x128 (constant (F := Ideal) S_ .f32 0x47C35000#32)))) := by
    show StableHlo.after hostOps1 (W2 m ρ c) (Proc.devRef .tc main_v27) = _
    after_results <;> rfl
  rw [e]
  show Ideal.div ((W2 (F := Ideal) m ρ c (Proc.devRef .tc main_v21_2) : S1x128.Idx → EReal) (ix2 0 k)) Cert.Spec.count
      - Ideal.div ((W2 (F := Ideal) m ρ c (Proc.devRef .tc main_v21_1) : S1x128.Idx → EReal) (ix2 0 k)) Cert.Spec.count
        * Ideal.div ((W2 (F := Ideal) m ρ c (Proc.devRef .tc main_v21_1) : S1x128.Idx → EReal) (ix2 0 k)) Cert.Spec.count = _
  rw [sum_at, sumsq_at]
  rfl

/-- A buffer the first stretch wrote and nothing later writes reaches the second region unchanged. -/
theorem scale_at (c : Dev nD) (k : Fin 128) :
    (V3 (F := Ideal) m ρ c main_v18 : S1x128.Idx → EReal) (ix2 0 k) = (m ((c.tc : Thread nD τ).loc main_arg5) : S128.Idx → EReal) (ix1 k) := by
  have e : (V3 (F := Ideal) m ρ c main_v18 : S1x128.Idx → EReal) = shapeCast S1x128 (m ((c.tc : Thread nD τ).loc main_arg5) : S128.Idx → EReal) shapeCasts_S128_S1x128 := by
    show StableHlo.after hostOps1 (W2 m ρ c) (Proc.devRef .tc main_v18) = _
    after_results
    refine (W2_of_ne m ρ c main_v18 (by decide)).trans ?_
    show StableHlo.after hostOps0 (W0 m ρ c) (Proc.devRef .tc main_v18) = _
    after_results <;> rfl
  rw [e]; exact row_of_vec _ k

theorem shift_at (c : Dev nD) (k : Fin 128) :
    (V3 (F := Ideal) m ρ c main_v19 : S1x128.Idx → EReal) (ix2 0 k) = (m ((c.tc : Thread nD τ).loc main_arg6) : S128.Idx → EReal) (ix1 k) := by
  have e : (V3 (F := Ideal) m ρ c main_v19 : S1x128.Idx → EReal) = shapeCast S1x128 (m ((c.tc : Thread nD τ).loc main_arg6) : S128.Idx → EReal) shapeCasts_S128_S1x128 := by
    show StableHlo.after hostOps1 (W2 m ρ c) (Proc.devRef .tc main_v19) = _
    after_results
    refine (W2_of_ne m ρ c main_v19 (by decide)).trans ?_
    show StableHlo.after hostOps0 (W0 m ρ c) (Proc.devRef .tc main_v19) = _
    after_results <;> rfl
  rw [e]; exact row_of_vec _ k

theorem bias_at (c : Dev nD) (j : Fin 128) :
    (V3 (F := Ideal) m ρ c main_v17 : S1x128.Idx → EReal) (ix2 0 j) = (m ((c.tc : Thread nD τ).loc main_arg8) : S128.Idx → EReal) (ix1 j) := by
  have e : (V3 (F := Ideal) m ρ c main_v17 : S1x128.Idx → EReal) = shapeCast S1x128 (m ((c.tc : Thread nD τ).loc main_arg8) : S128.Idx → EReal) shapeCasts_S128_S1x128 := by
    show StableHlo.after hostOps1 (W2 m ρ c) (Proc.devRef .tc main_v17) = _
    after_results
    refine (W2_of_ne m ρ c main_v17 (by decide)).trans ?_
    show StableHlo.after hostOps0 (W0 m ρ c) (Proc.devRef .tc main_v17) = _
    after_results <;> rfl
  rw [e]; exact row_of_vec _ j

theorem w2_at (c : Dev nD) (k j : Fin 128) :
    (V3 (F := Ideal) m ρ c main_v15 : S128x128.Idx → EReal) (ix2 k j) = (m ((c.tc : Thread nD τ).loc main_arg7) : S128x128.Idx → EReal) (ix2 j k) := by
  have e : (V3 (F := Ideal) m ρ c main_v15 : S128x128.Idx → EReal) = transpose S128x128 [1, 0] (m ((c.tc : Thread nD τ).loc main_arg7) : S128x128.Idx → EReal) transposes_S128x128_S128x128_1_0 := by
    show StableHlo.after hostOps1 (W2 m ρ c) (Proc.devRef .tc main_v15) = _
    after_results
    refine (W2_of_ne m ρ c main_v15 (by decide)).trans ?_
    show StableHlo.after hostOps0 (W0 m ρ c) (Proc.devRef .tc main_v15) = _
    after_results <;> rfl
  rw [e]; exact transposed_at _ k j

/-! ## The second region's function is the layer's -/

/-- The second region's whole-array function, over operands that read back as the layer's, is the layer's second half. -/
theorem normOut_eq_out (h : S100000x128.Idx → EReal) (mn vr g b : S1x128.Idx → EReal) (w2t : S128x128.Idx → EReal) (b2r : S1x128.Idx → EReal)
    (H : Fin 100000 → Fin 128 → EReal) (var : Fin 128 → EReal) (γ β : S128.Idx → EReal) (W2 : S128x128.Idx → EReal) (b2 : S128.Idx → EReal)
    (hh : ∀ (r : Fin 100000) (k : Fin 128), h (ix2 r k) = H r k) (hm : ∀ k : Fin 128, mn (ix2 0 k) = Cert.Spec.mean H k)
    (hv : ∀ k : Fin 128, vr (ix2 0 k) = var k) (hg : ∀ k : Fin 128, g (ix2 0 k) = γ (ix1 k)) (hb : ∀ k : Fin 128, b (ix2 0 k) = β (ix1 k))
    (hw : ∀ k j : Fin 128, w2t (ix2 k j) = W2 (ix2 j k)) (hb2 : ∀ j : Fin 128, b2r (ix2 0 j) = b2 (ix1 j)) (r : Fin 100000) (j : Fin 128) :
    normOut h mn vr g b w2t b2r r j = (∑ k : Fin 128, Cert.Spec.act γ β H var r k * W2 (ix2 j k)) + b2 (ix1 j) := by
  unfold normOut Cert.Spec.act
  simp only [hh, hm, hv, hg, hb, hw, hb2]

end Result

theorem result_value (c : Dev nD) (r : Fin 100000) (j : Fin 128) :
    (dat1 (F := Ideal) (V3 m ρ) c).arrAt 7 cfg1.N (ix2 r j)
      = Cert.Spec.outMoments (m ((c.tc : Thread nD τ).loc main_arg0)) (nbrOf (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg7)) (m ((c.tc : Thread nD τ).loc main_arg4)) (m ((c.tc : Thread nD τ).loc main_arg5)) (m ((c.tc : Thread nD τ).loc main_arg6)) (m ((c.tc : Thread nD τ).loc main_arg8)) r j := by
  refine (final1 (V3 m ρ) c r j).trans ?_
  unfold Cert.Spec.outMoments Cert.Spec.out
  exact Result.normOut_eq_out _ _ _ _ _ _ _ (Result.layer1 m c) (Cert.Spec.varMoments (Result.layer1 m c)) _ _ _ _
    (Result.rows_at m ρ c) (Result.mean_at m ρ c) (Result.var_at m ρ c) (Result.scale_at m ρ c) (Result.shift_at m ρ c)
    (Result.w2_at m ρ c) (Result.bias_at m ρ c) r j

end Cert.KernelIdeal.Value

end
-- ==== Proof.RefValue.lean ====
/-
  The reference program's result, read index by index, is the layer of the specification with the variance taken
  from the squared deviations. Each stage group is read at an index and identified with the matching quantity of
  the specification: the combination of a node's own row with its neighbours' sum, the first linear layer, the
  column mean, the centred variance, the activation, and the second linear layer.
-/
import proofs.«121117_j83167746719884_1_alg».proof.Proof.Gen.ReferenceIdeal.Read
import proofs.«121117_j83167746719884_1_alg».proof.Proof.Spec

open scoped BigOperators

noncomputable section

namespace Cert.ReferenceIdeal.RefValue

open Cert.ReferenceIdeal Cert.ReferenceIdeal.Gen Cert.ReferenceIdeal.Read Idealize.ShloMosaic Idealize.ShloMosaic.ValueIdx

variable (x0 : (⟨S100000x128, .f32⟩ : BufTy).Contents (Elt Ideal)) (x1 : (⟨S2x1600000, .i32⟩ : BufTy).Contents (Elt Ideal))
  (x2 : (⟨S1, .f32⟩ : BufTy).Contents (Elt Ideal)) (x3 : (⟨S128x128, .f32⟩ : BufTy).Contents (Elt Ideal))
  (x4 x5 x6 : (⟨S128, .f32⟩ : BufTy).Contents (Elt Ideal)) (x7 : (⟨S128x128, .f32⟩ : BufTy).Contents (Elt Ideal))
  (x8 : (⟨S128, .f32⟩ : BufTy).Contents (Elt Ideal))

/-- The combination stage at (r, k): the literal one plus the self-loop weight, times the node's own entry, plus
    the neighbours' sum at the same place. -/
private theorem comb_eq (r : Fin 100000) (k : Fin 128) :
    val_main_v19 (F := Ideal) x0 x1 x2 (ix2 r k) = Cert.Spec.comb x0 (val_main_v13 (F := Ideal) x0 x1) x2 r k := by
  rw [val_main_v19_apply, val_main_v18_apply, val_main_v17_apply, val_main_v16_apply, val_main_v15_apply,
    val_main_v14_apply, val_main_cst_1_apply]
  have e : idx_main_v16 (idx_main_v17 (ix2 r k)) = ix1 (0 : Fin 1) :=
    funext fun a => Fin.ext (by match a with | ⟨0, _⟩ => rfl)
  rw [e]
  rfl

/-- The first linear layer at (r, j): the contraction pairs entry k of row r of the combination with entry (j, k)
    of the weights (the transposed operand read back through the transposition), and the bias is read at j. -/
private theorem lin1_eq (r : Fin 100000) (j : Fin 128) :
    val_main_v24 (F := Ideal) x0 x1 x2 x3 x4 (ix2 r j)
      = Cert.Spec.lin1 x0 (val_main_v13 (F := Ideal) x0 x1) x2 x3 x4 r j := by
  rw [val_main_v24_apply, val_main_v21_apply, val_main_v23_apply, val_main_v22_apply]
  have el : ∀ k : Fin 128, lidx_main_v21 (ix2 r j) k = ix2 r k := fun k =>
    funext fun a => Fin.ext (by match a with | ⟨0, _⟩ => rfl | ⟨1, _⟩ => rfl)
  have er : ∀ k : Fin 128, idx_main_v20 (ridx_main_v21 (ix2 r j) k) = ix2 j k := fun k =>
    funext fun a => Fin.ext (by match a with | ⟨0, _⟩ => rfl | ⟨1, _⟩ => rfl)
  have eb : idx_main_v22 (idx_main_v23 (ix2 r j)) = ix1 j :=
    funext fun a => Fin.ext (by match a with | ⟨0, _⟩ => rfl)
  simp only [val_main_v20_apply, el, er, eb, comb_eq, Ideal.addf_def]
  rfl

/-- The column mean at j: the host sum starts from the zero word, which is the number zero, and runs over the
    rows of the first linear layer; the divisor is the word of the node count. -/
private theorem mean_eq (j : Fin 128) :
    val_main_v27 (F := Ideal) x0 x1 x2 x3 x4 (ix1 j)
      = Cert.Spec.mean (Cert.Spec.lin1 x0 (val_main_v13 (F := Ideal) x0 x1) x2 x3 x4) j := by
  rw [val_main_v27_apply, val_main_v25_apply, val_main_v26_apply, val_main_cst_3_apply, val_main_cst_2_apply]
  have e : ∀ k : Fin 100000, idx_main_v25 (ix1 j) k = ix2 k j := fun k =>
    funext fun a => Fin.ext (by match a with | ⟨0, _⟩ => rfl | ⟨1, _⟩ => rfl)
  simp only [e, lin1_eq, Ideal.ofBits_def, Ideal.ofBits_zero_f32, zero_add, Ideal.hostDivf_def]
  rfl

/-- The deviation from the column mean at (r, k), as the variance's branch reads it. -/
private theorem dev_eq (r : Fin 100000) (k : Fin 128) :
    val_main_v30 (F := Ideal) x0 x1 x2 x3 x4 (ix2 r k)
      = Cert.Spec.lin1 x0 (val_main_v13 (F := Ideal) x0 x1) x2 x3 x4 r k
        - Cert.Spec.mean (Cert.Spec.lin1 x0 (val_main_v13 (F := Ideal) x0 x1) x2 x3 x4) k := by
  rw [val_main_v30_apply, val_main_v29_apply, val_main_v28_apply]
  have e : idx_main_v28 (idx_main_v29 (ix2 r k)) = ix1 k :=
    funext fun a => Fin.ext (by match a with | ⟨0, _⟩ => rfl)
  rw [e, lin1_eq, mean_eq, Ideal.subf_def]

/-- The same deviation at (r, k), as the normalisation's branch reads it. -/
private theorem dev'_eq (r : Fin 100000) (k : Fin 128) :
    val_main_v37 (F := Ideal) x0 x1 x2 x3 x4 (ix2 r k)
      = Cert.Spec.lin1 x0 (val_main_v13 (F := Ideal) x0 x1) x2 x3 x4 r k
        - Cert.Spec.mean (Cert.Spec.lin1 x0 (val_main_v13 (F := Ideal) x0 x1) x2 x3 x4) k := by
  rw [val_main_v37_apply, val_main_v36_apply, val_main_v35_apply]
  have e : idx_main_v35 (idx_main_v36 (ix2 r k)) = ix1 k :=
    funext fun a => Fin.ext (by match a with | ⟨0, _⟩ => rfl)
  rw [e, lin1_eq, mean_eq, Ideal.subf_def]

/-- The variance at j: the mean of the squared deviations, the host sum again starting from zero. -/
private theorem var_eq (j : Fin 128) :
    val_main_v34 (F := Ideal) x0 x1 x2 x3 x4 (ix1 j)
      = Cert.Spec.varCentered (Cert.Spec.lin1 x0 (val_main_v13 (F := Ideal) x0 x1) x2 x3 x4) j := by
  rw [val_main_v34_apply, val_main_v32_apply, val_main_v33_apply, val_main_cst_5_apply, val_main_cst_4_apply]
  have e : ∀ k : Fin 100000, idx_main_v32 (ix1 j) k = ix2 k j := fun k =>
    funext fun a => Fin.ext (by match a with | ⟨0, _⟩ => rfl | ⟨1, _⟩ => rfl)
  simp only [e, val_main_v31_apply, dev_eq, Ideal.mulf_def, Ideal.ofBits_def, Ideal.ofBits_zero_f32, zero_add,
    Ideal.hostDivf_def]
  rfl

/-- The normalising factor at k: the reciprocal square root of the variance plus the epsilon word. -/
private theorem rstd_eq (k : Fin 128) :
    val_main_v40 (F := Ideal) x0 x1 x2 x3 x4 (ix1 k)
      = Ideal.rsqrt (Cert.Spec.varCentered (Cert.Spec.lin1 x0 (val_main_v13 (F := Ideal) x0 x1) x2 x3 x4) k
          + Cert.Spec.epsBN) := by
  rw [val_main_v40_apply, val_main_v39_apply, val_main_v38_apply, val_main_cst_6_apply, var_eq,
    Ideal.hostUnary_rsqrt_def, Ideal.addf_def, Ideal.ofBits_def]
  rfl

/-- The activation at (r, k): deviation times normalising factor, scaled, shifted, clipped at the zero word. -/
private theorem act_eq (r : Fin 100000) (k : Fin 128) :
    val_main_v50 (F := Ideal) x0 x1 x2 x3 x4 x5 x6 (ix2 r k)
      = Cert.Spec.act x5 x6 (Cert.Spec.lin1 x0 (val_main_v13 (F := Ideal) x0 x1) x2 x3 x4)
          (Cert.Spec.varCentered (Cert.Spec.lin1 x0 (val_main_v13 (F := Ideal) x0 x1) x2 x3 x4)) r k := by
  rw [val_main_v50_apply, val_main_call0_v0_apply, val_main_call0_cst_apply, val_main_v49_apply,
    val_main_v48_apply, val_main_v47_apply, val_main_v46_apply, val_main_v45_apply, val_main_v44_apply,
    val_main_v43_apply, val_main_v42_apply, val_main_v41_apply]
  have eg : idx_main_v44 (idx_main_v45 (ix2 r k)) = ix1 k :=
    funext fun a => Fin.ext (by match a with | ⟨0, _⟩ => rfl)
  have eb : idx_main_v47 (idx_main_v48 (ix2 r k)) = ix1 k :=
    funext fun a => Fin.ext (by match a with | ⟨0, _⟩ => rfl)
  have es : idx_main_v41 (idx_main_v42 (ix2 r k)) = ix1 k :=
    funext fun a => Fin.ext (by match a with | ⟨0, _⟩ => rfl)
  rw [eg, eb, es, dev'_eq, rstd_eq, Ideal.maximumf_def, Ideal.addf_def, Ideal.mulf_def, Ideal.mulf_def,
    Ideal.ofBits_def, Ideal.ofBits_zero_f32]
  rfl

/-- the reference's result at (r, j) is the layer with the variance taken from the squared deviations -/
theorem result_eq (x0 : (⟨S100000x128, .f32⟩ : BufTy).Contents (Elt Ideal)) (x1 : (⟨S2x1600000, .i32⟩ : BufTy).Contents (Elt Ideal)) (x2 : (⟨S1, .f32⟩ : BufTy).Contents (Elt Ideal)) (x3 : (⟨S128x128, .f32⟩ : BufTy).Contents (Elt Ideal)) (x4 x5 x6 : (⟨S128, .f32⟩ : BufTy).Contents (Elt Ideal)) (x7 : (⟨S128x128, .f32⟩ : BufTy).Contents (Elt Ideal)) (x8 : (⟨S128, .f32⟩ : BufTy).Contents (Elt Ideal)) (r : Fin 100000) (j : Fin 128) :
    val_main_v55 (F := Ideal) x0 x1 x2 x3 x4 x5 x6 x7 x8 (ix2 r j)
      = Cert.Spec.outCentered x0 (val_main_v13 (F := Ideal) x0 x1) x2 x3 x7 x4 x5 x6 x8 r j := by
  rw [val_main_v55_apply, val_main_v52_apply, val_main_v54_apply, val_main_v53_apply]
  have el : ∀ k : Fin 128, lidx_main_v52 (ix2 r j) k = ix2 r k := fun k =>
    funext fun a => Fin.ext (by match a with | ⟨0, _⟩ => rfl | ⟨1, _⟩ => rfl)
  have er : ∀ k : Fin 128, idx_main_v51 (ridx_main_v52 (ix2 r j) k) = ix2 j k := fun k =>
    funext fun a => Fin.ext (by match a with | ⟨0, _⟩ => rfl | ⟨1, _⟩ => rfl)
  have eb : idx_main_v53 (idx_main_v54 (ix2 r j)) = ix1 j :=
    funext fun a => Fin.ext (by match a with | ⟨0, _⟩ => rfl)
  simp only [val_main_v51_apply, el, er, eb, act_eq, Ideal.addf_def]
  rfl

end Cert.ReferenceIdeal.RefValue

end
-- ==== Proof.VarianceLaw.lean ====
/-
  The algebra that joins the two readings of a column's biased variance.

  On a column of real numbers the mean of the squares minus the square of the mean equals the mean of the
  squared deviations from the mean. Over the extended reals the identity is carried from the reals: every
  entry is the image of a real number, sums, products and differences of images are images, and division by
  the real number 100000 is the product with its reciprocal. The first linear layer of real inputs is built
  from sums and products only, so it is real, and the two layers agree entry by entry.
-/
import proofs.«121117_j83167746719884_1_alg».proof.Proof.Spec
import Mathlib.Data.EReal.Basic
import Mathlib.Data.EReal.Operations
import Mathlib.Data.EReal.Inv
import Mathlib.Algebra.BigOperators.Ring.Finset
import Mathlib.Algebra.BigOperators.Group.Finset.Basic
import Mathlib.Data.Fintype.BigOperators
import Mathlib.Tactic.Ring
import Mathlib.Tactic.NormNum
import Mathlib.Tactic.FieldSimp

open scoped BigOperators

noncomputable section

namespace Cert.Spec

open Idealize.ShloMosaic Idealize.ShloMosaic.ValueIdx

/-- The word 0x3F800000 denotes the real number 1: sign plus, exponent field 127, significand field 0. -/
theorem one_eq : one = ((1 : ℝ) : EReal) := by
  unfold one
  simp [Ideal.ofBits, Ideal.ieee, -EReal.coe_mul]
  norm_num

/-- The word 0x47C35000 denotes the real number 100000: exponent field 143, significand field 0x435000,
    so (2^23 + 4411392) · 2^(143 − 127 − 23) = 12800000 / 128. -/
theorem count_eq : count = ((100000 : ℝ) : EReal) := by
  unfold count
  simp [Ideal.ofBits, Ideal.ieee, -EReal.coe_mul]
  norm_num

/-- A finite sum of images of real numbers is the image of the real sum (additivity of the embedding,
    one summand at a time). -/
theorem coe_sum_real {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The variance identity in the reals, over 100000 entries: with μ the mean,
    the mean of (v − μ)² is the mean of v² minus μ². Expand the square, sum termwise, and use that the
    constant μ² summed over the column is 100000 · μ². -/
theorem var_identity_real (v : Fin 100000 → ℝ) :
    (∑ r, v r * v r) * (1 / 100000 : ℝ) - ((∑ r, v r) * (1 / 100000 : ℝ)) * ((∑ r, v r) * (1 / 100000 : ℝ))
      = (∑ r, (v r - (∑ r, v r) * (1 / 100000 : ℝ)) * (v r - (∑ r, v r) * (1 / 100000 : ℝ))) * (1 / 100000 : ℝ) := by
  generalize hμ : (∑ r, v r) * (1 / 100000 : ℝ) = μ
  have hS : (∑ r, v r) = 100000 * μ := by rw [← hμ]; ring
  have hexp : ∀ r, (v r - μ) * (v r - μ) = v r * v r - 2 * μ * v r + μ * μ := by intro r; ring
  have hconst : (∑ _r : Fin 100000, μ * μ) = 100000 * (μ * μ) := by
    rw [Finset.sum_const, Finset.card_univ, Fintype.card_fin, nsmul_eq_mul]; norm_num
  simp only [hexp]
  rw [Finset.sum_add_distrib, Finset.sum_sub_distrib, ← Finset.mul_sum, hconst, hS]
  ring

/-- the two readings of the variance agree on a column of real numbers -/
theorem varMoments_eq_varCentered (h : Fin 100000 → Fin 128 → EReal) (hfin : ∀ r j, ∃ v : ℝ, h r j = (v : EReal))
    (j : Fin 128) : varMoments h j = varCentered h j := by
  choose v hv using hfin
  have hne : (100000 : ℝ) ≠ 0 := by norm_num
  unfold varMoments varCentered mean
  simp only [hv, count_eq, Ideal.div_coe hne, ← EReal.coe_mul, coe_sum_real, ← EReal.coe_sub]
  exact congrArg _ (var_identity_real (fun r => v r j))

/-- A sum of two images of real numbers is one. -/
theorem real_add {a b : EReal} (ha : ∃ v : ℝ, a = (v : EReal)) (hb : ∃ v : ℝ, b = (v : EReal)) :
    ∃ v : ℝ, a + b = (v : EReal) := by
  obtain ⟨u, rfl⟩ := ha; obtain ⟨w, rfl⟩ := hb; exact ⟨u + w, (EReal.coe_add u w).symm⟩

/-- A product of two images of real numbers is one. -/
theorem real_mul {a b : EReal} (ha : ∃ v : ℝ, a = (v : EReal)) (hb : ∃ v : ℝ, b = (v : EReal)) :
    ∃ v : ℝ, a * b = (v : EReal) := by
  obtain ⟨u, rfl⟩ := ha; obtain ⟨w, rfl⟩ := hb; exact ⟨u * w, (EReal.coe_mul u w).symm⟩

/-- A finite sum of images of real numbers is one. -/
theorem real_sum {ι : Type*} (s : Finset ι) (f : ι → EReal) (hf : ∀ i, ∃ v : ℝ, f i = (v : EReal)) :
    ∃ v : ℝ, (∑ i ∈ s, f i) = (v : EReal) := by
  choose g hg using hf
  exact ⟨∑ i ∈ s, g i, by simp only [hg, coe_sum_real]⟩

/-- the first linear layer of real inputs is real -/
theorem lin1_real (x nbr : Rows.Idx → EReal) (eps : One.Idx → EReal) (W1 : Sq.Idx → EReal) (b1 : Feat.Idx → EReal)
    (hx : ∀ i, ∃ v : ℝ, x i = (v : EReal)) (hnbr : ∀ i, ∃ v : ℝ, nbr i = (v : EReal))
    (heps : ∀ i, ∃ v : ℝ, eps i = (v : EReal))
    (hW1 : ∀ i, ∃ v : ℝ, W1 i = (v : EReal)) (hb1 : ∀ i, ∃ v : ℝ, b1 i = (v : EReal)) :
    ∀ r j, ∃ v : ℝ, lin1 x nbr eps W1 b1 r j = (v : EReal) := by
  intro r j
  unfold lin1 comb
  refine real_add (real_sum _ _ fun k => real_mul (real_add (real_mul (real_add ⟨1, one_eq⟩ (heps _)) (hx _)) (hnbr _)) (hW1 _)) (hb1 _)

/-- hence the two layers agree -/
theorem outMoments_eq_outCentered (x nbr : Rows.Idx → EReal) (eps : One.Idx → EReal) (W1 W2 : Sq.Idx → EReal)
    (b1 γ β b2 : Feat.Idx → EReal)
    (hx : ∀ i, ∃ v : ℝ, x i = (v : EReal)) (hnbr : ∀ i, ∃ v : ℝ, nbr i = (v : EReal))
    (heps : ∀ i, ∃ v : ℝ, eps i = (v : EReal))
    (hW1 : ∀ i, ∃ v : ℝ, W1 i = (v : EReal)) (hb1 : ∀ i, ∃ v : ℝ, b1 i = (v : EReal)) (r : Fin 100000) (j : Fin 128) :
    outMoments x nbr eps W1 W2 b1 γ β b2 r j = outCentered x nbr eps W1 W2 b1 γ β b2 r j := by
  have hvar : varMoments (lin1 x nbr eps W1 b1) = varCentered (lin1 x nbr eps W1 b1) :=
    funext fun k => varMoments_eq_varCentered _ (lin1_real x nbr eps W1 b1 hx hnbr heps hW1 hb1) k
  unfold outMoments outCentered out
  rw [hvar]

end Cert.Spec

end
-- ==== Proof.LibClamp.lean ====
/-
  The start index of a host gather, read as the operation reads it: the word taken as a signed integer and clamped
  into the table's rows 0 … N − 1 (a negative index reads row 0, one past the end reads the last row).
-/
import Mathlib.Data.BitVec
import Mathlib.Order.Basic

namespace Cert.LibClamp

/-- A word read signed and clamped into the rows 0 … N − 1 of a table with at least one row. -/
def clampTo {w : Nat} (N : Nat) (hN : 0 < N) (v : BitVec w) : Fin N := ⟨min v.toInt.toNat (N - 1), by omega⟩

end Cert.LibClamp
-- ==== Proof.LibGatherScatter.lean ====
/-
  The host's row gather and accumulating row scatter, read at one element, for abstract dimension records whose
  printed fields are given as hypotheses. A row gather over an [N × C] table with an [n × 1] column of start indices
  reads, at (e, j), the table's row named by the e-th index — taken as a signed integer and clamped into the rows
  0 … N − 1 — at column j. The accumulating row scatter adds, into element (c, j), column j of every update row
  whose index, taken signed and NOT clamped, is exactly c; an index that is negative or at least N adds nowhere. The
  same two readings are given for a rank-1 table.
-/
import Idealize.ShloMosaic.PureOps.Ideal
import Idealize.ShloMosaic.PureOps.Ideal.Laws
import Idealize.ShloMosaic.Lib.ValueIdx
import Idealize.ShloMosaic.Lib.StableHlo.Predicate
import proofs.«121117_j83167746719884_1_alg».proof.Proof.LibClamp

open scoped BigOperators

namespace Cert.LibGatherScatter

open Idealize.ShloMosaic Idealize.ShloMosaic.ValueIdx Idealize.ShloMosaic.StableHlo.Predicate
open Cert.LibClamp

/-! ## Where an update lands -/

/-- An update index lands at operand index `i` exactly when, on every operand axis, the window's start (read signed,
    not clamped) plus the window coordinate is `i`'s coordinate: inside the operand by being a coordinate of it. -/
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

/-- The accumulating row scatter's dimension numbers, read at update index `(e, j')`: on the operand's row axis the
    window starts at the `e`-th scatter index and has no extent; on the column axis it starts at `0` and the update's
    column is the window coordinate. -/
theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

/-- Update `(e, j')` of the row scatter lands at operand element `(c, j)` exactly when it is in column `j` and the
    `e`-th scatter index, read signed, is the row `c`: a negative index, or one past the last row, lands nowhere. -/
theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

/-! ## The accumulating row scatter at an element -/

/-- THE ROW SCATTER READ AT `(c, j)`. The accumulation of update rows into the rows of an [N × C] table, the scatter indices an
    [n × 1] column: element `(c, j)` is the operand's plus the sum of column `j` of the update rows `e` whose scatter
    index, read SIGNED and NOT clamped, is `c`. A row whose index is negative or at least `N` adds nowhere. -/
theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

/-! ## The row gather at an element -/

/-- The row gather's dimension numbers, read at result index `(e, j)`: the operand's row is the `e`-th start index read
    signed and clamped into `0 … N − 1` (the slice is one row high), its column is `j` (the slice starts at column 0,
    and the result's second axis is the offset along it). -/
theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

/-- THE ROW GATHER READ AT `(e, j)`: the table's row named by the `e`-th start index, read SIGNED and CLAMPED into the rows
    `0 … N − 1` (a negative index reads row 0, one past the end reads the last row), at column `j`. -/
theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

/-! ## The accumulating scatter into a rank-1 table at an element -/

/-- The rank-1 scatter's dimension numbers, read at update index `e`: on the operand's one axis the window starts at
    the `e`-th scatter index and has no extent. -/
theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

/-- Update `e` of the rank-1 scatter lands at operand element `q` exactly when the `e`-th scatter index, read signed, is
    `q`: a negative index, or one past the last entry, lands nowhere. -/
theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

/-- THE RANK-1 SCATTER READ AT `q`. The accumulation of scalar updates into a table of `G` entries, the scatter indices an
    [n × 1] column: entry `q` is the operand's plus the sum of the updates `e` whose scatter index, read SIGNED and NOT
    clamped, is `q`. An update whose index is negative or at least `G` adds nowhere. -/
theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

/-! ## The rank-1 gather at an element -/

/-- A rank-1 index built from its coordinate is the same index however it is written. -/
theorem ofFin_eq_ix1 {n : Nat} (k : Fin n) : (Shape.Idx.ofFin k : (⟨1, ![n]⟩ : Shape).Idx) = ix1 k := by
  funext a
  match a with
  | ⟨0, _⟩ => rfl

/-- THE RANK-1 GATHER READ AT `e`: the table's entry named by the `e`-th start index, read SIGNED and CLAMPED into the
    positions `0 … N − 1` (a negative index reads entry 0, one past the end reads the last). -/
theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.FiniteInputs.lean ====
/-
  Finiteness. The precondition applies, to each floating-point input, the test |a| < +∞ at every entry and joins all the
  outcomes by "and". An extended real whose absolute value (the larger of a and −a) lies strictly below +∞ is neither
  +∞ nor −∞, hence a real number; so every floating-point input holds real numbers only. A row gather merely reads
  entries of its table, and an accumulating scatter into a table of zeros yields, at each element, zero plus a finite
  sum of gathered entries; a finite sum of reals is real, so the aggregated neighbour rows are real as well.
-/
import proofs.«121117_j83167746719884_1_alg».proof.Pre_finite_inputs
import proofs.«121117_j83167746719884_1_alg».proof.KernelIdeal
import proofs.«121117_j83167746719884_1_alg».proof.Proof.Gen.Pre_finite_inputs
import proofs.«121117_j83167746719884_1_alg».proof.Proof.LibGatherScatter
import Idealize.ShloMosaic.Lib.ReduceAll

open scoped BigOperators

namespace Cert.FiniteInputs

open Idealize.ShloMosaic Idealize.ShloMosaic.ValueIdx Idealize.ShloMosaic.StableHlo.Predicate

/-- The word 0x7F800000 denotes +∞. -/
theorem inf_word : Ideal.ofBits .f32 0x7F800000#32 = (⊤ : EReal) := by simp [Ideal.ofBits, Ideal.ieee]

/-- An extended real whose absolute value, max x (−x), is strictly below +∞ is a real number: +∞ fails the test on x
    itself and −∞ fails it on −x. -/
theorem real_of_abs_lt_top (x : EReal) (h : max x (-x) < ⊤) : ∃ v : ℝ, x = (v : EReal) := by
  rw [max_lt_iff] at h
  induction x using EReal.rec with
  | bot => exact absurd h.2 (by simp)
  | coe v => exact ⟨v, rfl⟩
  | top => exact absurd h.1 (by simp)

/-- One entry: the test |x| < +∞ (the bound given as its word) answering "true" says x is real. -/
theorem real_of_test (x : Ideal .f32)
    (h : FloatOps.cmpf .olt (FloatOps.hostAbsf x) (FloatOps.ofBits (F := Ideal) .f32 0x7F800000#32) = 1#1) :
    ∃ v : ℝ, x = (v : EReal) := by
  have h' : Ideal.cmp .olt (max (x : EReal) (-(x : EReal))) (Ideal.ofBits .f32 0x7F800000#32) = 1#1 := h
  rw [inf_word] at h'
  unfold Ideal.cmp at h'
  apply real_of_abs_lt_top
  by_contra hn
  simp [hn] at h'

instance : Subsingleton (⟨0, ![]⟩ : Shape).Idx := ⟨fun a b => funext fun d => d.elim0⟩

/-- A whole array: if the "and" over all entries of the test |a| < +∞ is "true", every entry is real. -/
theorem all_real {s : Shape} {axes : List (Fin s.rank)} (a : FVec Ideal s .f32)
    (hb : (⟨0, ![]⟩ : Shape).BroadcastsInDim s (![] : Fin 0 → Fin s.rank))
    (hr : s.ReducesTo axes ⟨0, ![]⟩) (hu : 0 < (⟨0, ![]⟩ : Shape).numel) (init : IVec ⟨0, ![]⟩ 1) (j : (⟨0, ![]⟩ : Shape).Idx)
    (e : Host.reduce IntOp.andi
          (cmpf .olt (Host.absf a) (broadcastInDim s ![] hb (constant (F := Ideal) ⟨0, ![]⟩ .f32 0x7F800000#32))) init hr hu j = 1#1) :
    ∀ i, ∃ v : ℝ, a i = (v : EReal) := fun i =>
  real_of_test (a i) (Host.reduce_andi_all _ init hr hu j e i)

/-- a float array all of whose entries pass |a| < +inf holds real numbers; from the whole predicate, every float input does -/
theorem of_pre [Cert.Pre_finite_inputs.Facts]
    (a0 : FVec Ideal Cert.Pre_finite_inputs.S100000x128 .f32) (a1 : IVec Cert.Pre_finite_inputs.S2x1600000 32) (a2 : FVec Ideal Cert.Pre_finite_inputs.S1 .f32) (a3 : FVec Ideal Cert.Pre_finite_inputs.S128x128 .f32) (a4 a5 a6 : FVec Ideal Cert.Pre_finite_inputs.S128 .f32) (a7 : FVec Ideal Cert.Pre_finite_inputs.S128x128 .f32) (a8 : FVec Ideal Cert.Pre_finite_inputs.S128 .f32)
    (h : Cert.Pre_finite_inputs.fn (F := Ideal) a0 a1 a2 a3 a4 a5 a6 a7 a8 = fun _ => 1#1) :
    (∀ i, ∃ v : ℝ, a0 i = (v : EReal)) ∧ (∀ i, ∃ v : ℝ, a2 i = (v : EReal)) ∧ (∀ i, ∃ v : ℝ, a3 i = (v : EReal)) ∧ (∀ i, ∃ v : ℝ, a4 i = (v : EReal))
    ∧ (∀ i, ∃ v : ℝ, a5 i = (v : EReal)) ∧ (∀ i, ∃ v : ℝ, a6 i = (v : EReal)) ∧ (∀ i, ∃ v : ℝ, a7 i = (v : EReal)) ∧ (∀ i, ∃ v : ℝ, a8 i = (v : EReal)) := by
  have h0 := congrFun h ix0
  dsimp only [Cert.Pre_finite_inputs.fn, Cert.Pre_finite_inputs.fn_part1, Cert.Pre_finite_inputs.fn_part2] at h0
  -- the outermost "and" joins the eighth test to the rest, and so on inward
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real a0 _ _ _ _ _ e0, all_real a2 _ _ _ _ _ e2, all_real a3 _ _ _ _ _ e3, all_real a4 _ _ _ _ _ e4,
    all_real a5 _ _ _ _ _ e5, all_real a6 _ _ _ _ _ e6, all_real a7 _ _ _ _ _ e7, all_real a8 _ _ _ _ _ e8⟩

/-- A finite sum of real numbers, taken in the extended reals, is a real number. -/
theorem sum_real {ι : Type} (t : Finset ι) (f : ι → EReal) (hf : ∀ e ∈ t, ∃ v : ℝ, f e = (v : EReal)) :
    ∃ v : ℝ, ∑ e ∈ t, f e = (v : EReal) := by
  classical
  induction t using Finset.induction_on with
  | empty => exact ⟨0, by simp⟩
  | insert a t ha ih =>
    obtain ⟨v, hv⟩ := hf a (Finset.mem_insert_self a t)
    obtain ⟨w, hw⟩ := ih (fun e he => hf e (Finset.mem_insert_of_mem he))
    exact ⟨v + w, by rw [Finset.sum_insert ha, hv, hw, EReal.coe_add]⟩

/-- the scatter-add of gathered rows of a real table into a zero table is real, whatever the two index columns hold -/
theorem nbr_real [Cert.KernelIdeal.Facts] (x : FVec Ideal Cert.KernelIdeal.S100000x128 .f32) (icol irow : IVec Cert.KernelIdeal.S1600000x1 32)
    (hx : ∀ i, ∃ v : ℝ, x i = (v : EReal)) :
    ∀ i, ∃ v : ℝ, Host.scatterAdd (F := Ideal) Cert.KernelIdeal.scatter_S100000x128_S1600000x1_S1600000x128_1_0_0_1
        (broadcastInDim Cert.KernelIdeal.S100000x128 ![] Cert.KernelIdeal.Facts₀.bcast_S_S100000x128 (constant (F := Ideal) Cert.KernelIdeal.S_ .f32 0x00000000#32)) irow
        (Host.gather Cert.KernelIdeal.gather_S100000x128_S1600000x1_S1600000x128_1_0_n_n_0_1_1128 x icol) i = (v : EReal) := by
  intro i
  obtain ⟨c, j, rfl⟩ : ∃ (c : Fin 100000) (j : Fin 128), i = ix2 c j := ⟨i 0, i 1, eq_ix2 (n0 := 100000) (n1 := 128) i⟩
  rw [Cert.LibGatherScatter.scatterAdd_rows_apply (N := 100000) (C := 128) (n := 1600000)
    Cert.KernelIdeal.scatter_S100000x128_S1600000x1_S1600000x128_1_0_0_1 rfl rfl rfl rfl]
  -- every gathered entry is an entry of the table, hence real
  obtain ⟨w, hw⟩ := sum_real
    (Finset.univ.filter (fun e : Fin 1600000 => (irow (ixP e)).toInt = ((c.val : ℕ) : ℤ)))
    (fun e => Host.gather Cert.KernelIdeal.gather_S100000x128_S1600000x1_S1600000x128_1_0_n_n_0_1_1128 x icol (ix2 e j))
    (fun e _ => by
      rw [Cert.LibGatherScatter.gather_rows_apply (N := 100000) (C := 128) (n := 1600000) (by decide)
        Cert.KernelIdeal.gather_S100000x128_S1600000x1_S1600000x128_1_0_n_n_0_1_1128 rfl rfl rfl rfl rfl]
      exact hx _)
  refine ⟨w, ?_⟩
  rw [hw]
  -- the table scattered into is zero at every element
  show Ideal.ofBits .f32 0x00000000#32 + (w : EReal) = (w : EReal)
  rw [Ideal.ofBits_zero_f32, zero_add]

end Cert.FiniteInputs
-- ==== Proof.lean ====
/-
  The certificate's five claims for a one-layer graph network on 100000 nodes with 128 features.

  Both programs aggregate each node's neighbour rows by the same two host operations (a row gather and an
  accumulating row scatter), combine them with the node's own row, apply a linear layer, normalise each column with
  the batch's mean and biased variance, scale, shift, clip at zero, and apply a second linear layer. The kernel
  program does the linear layers and the normalisation in two tiled kernels over twenty blocks of 5000 rows: the
  first stores the first layer's rows and accumulates each column's sum and sum of squares across the blocks; the
  host then forms the mean and, from the two moments, the variance E[h²] − (E[h])²; the second kernel normalises and
  applies the second layer. The reference takes the variance as the mean of the squared deviations. Over the extended
  reals the two variances agree when the first layer's rows are real numbers, which they are when the float inputs are
  finite: the aggregated rows are finite sums of entries of x. That is the one place the precondition is used.

  The three frames: both kernel programs run as four segments (host operations, a kernel region, host operations, a
  kernel region), each region by its body's run at every grid point, and no segment writes an argument; the reference
  is a line of host operations.
-/
import proofs.«121117_j83167746719884_1_alg».proof.Defs
import proofs.«121117_j83167746719884_1_alg».proof.Proof.Gen.Kernel
import proofs.«121117_j83167746719884_1_alg».proof.Proof.Gen.KernelIdeal
import proofs.«121117_j83167746719884_1_alg».proof.Proof.Gen.ReferenceIdeal
import proofs.«121117_j83167746719884_1_alg».proof.Proof.Gen.Pre_finite_inputs
import proofs.«121117_j83167746719884_1_alg».proof.Proof.KernelFrame.Run
import proofs.«121117_j83167746719884_1_alg».proof.Proof.KernelIdealFrame.Run
import proofs.«121117_j83167746719884_1_alg».proof.Proof.KernelIdealValue.Result
import proofs.«121117_j83167746719884_1_alg».proof.Proof.RefValue
import proofs.«121117_j83167746719884_1_alg».proof.Proof.VarianceLaw
import proofs.«121117_j83167746719884_1_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel := fun m ρ _ => Cert.Kernel.Frame.frame (F := Bits) m ρ

/-- So does its idealization. -/
theorem frame_kernelIdeal : Cert.frame_KernelIdeal := fun m ρ _ => Cert.KernelIdeal.Frame.frame (F := Ideal) m ρ

/-- The reference is a line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The reference's aggregated neighbour rows are the kernel program's: the same two host operations on the same
    operands. -/
theorem nbr_same (x : (⟨Cert.KernelIdeal.S100000x128, .f32⟩ : BufTy).Contents (Elt Ideal)) (e : (⟨Cert.KernelIdeal.S2x1600000, .i32⟩ : BufTy).Contents (Elt Ideal)) :
    Cert.ReferenceIdeal.Read.val_main_v13 (F := Ideal) x e = Cert.KernelIdeal.Value.nbrOf x e := rfl

/-- On finite inputs the reference's result, as a function of the kernel program's arguments, is the array the kernel
    program's second region leaves: the layer with the variance from the squared deviations against the layer with the
    variance from the two moments, index by index. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = fun _ => 1#1) :
    Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      = (Cert.KernelIdeal.Frame.dat1 (F := Ideal) (Cert.KernelIdeal.Frame.V3 m ρ) c).arrAt 7 Cert.KernelIdeal.cfg1.N := by
  obtain ⟨fx, feps, fW1, fb1, -, -, -, -⟩ := Cert.FiniteInputs.of_pre _ _ _ _ _ _ _ _ _ hpre
  funext i
  obtain ⟨r, j, rfl⟩ : ∃ (r : Fin 100000) (j : Fin 128), i = ix2 r j := ⟨i 0, i 1, eq_ix2 i⟩
  rw [Cert.ReferenceIdeal.RefValue.result_eq, Cert.KernelIdeal.Value.result_value, nbr_same]
  exact (Cert.Spec.outMoments_eq_outCentered _ _ _ _ _ _ _ _ _ fx
    (Cert.FiniteInputs.nbr_real _ _ _ fx) feps fW1 fb1 r j).symm

/-- At the ideal instance both programs end with the same array. -/
theorem algebraic : Cert.algebraic_KernelIdeal_ReferenceIdeal := by
  intro m ρ m' ρ' hpre hagree
  refine ⟨fun c => (Cert.KernelIdeal.Frame.dat1 (F := Ideal) (Cert.KernelIdeal.Frame.V3 m ρ) c).arrAt 7 Cert.KernelIdeal.cfg1.N,
    Cert.KernelIdeal.Frame.result_mem (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v55_eq, h0, h1, h2, h3, h4, h5, h6, h7, h8]
  exact results_agree m ρ c (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
